-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S51200x64 : Shape := ⟨2, ![51200, 64]⟩
abbrev S800000x64 : Shape := ⟨2, ![800000, 64]⟩
abbrev S128x128 : Shape := ⟨2, ![128, 128]⟩
abbrev S192x64 : Shape := ⟨2, ![192, 64]⟩
abbrev S64 : Shape := ⟨1, ![64]⟩
abbrev S64x64 : Shape := ⟨2, ![64, 64]⟩
abbrev S192x128 : Shape := ⟨2, ![192, 128]⟩
abbrev S128 : Shape := ⟨1, ![128]⟩
abbrev S800000 : Shape := ⟨1, ![800000]⟩
abbrev S51200 : Shape := ⟨1, ![51200]⟩
abbrev S_ : Shape := ⟨0, ![]⟩

class Facts : Prop where
  bcast_S_S51200x64 : S_.BroadcastsInDim S51200x64 (![] : Fin 0 → Fin S51200x64.rank)
  reducesTo_S51200x64_S_d0_1 : S51200x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S192x128 .f32) (main_arg10 : FVec F S128 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S192x128 .f32 := Host.absf main_arg9
  let main_cst_16 : FVec F S_ .f32 := constant S_ .f32 0x7F800000#32
  let main_v45 : FVec F S192x128 .f32 := broadcastInDim S192x128 ![] bcast_S_S192x128 main_cst_16
  let main_v46 : IVec S192x128 1 := cmpf .olt main_v44 main_v45
  let main_c_17 : IVec S_ 1 := constantI S_ 1 1#1
  let main_v47 : IVec S_ 1 := (fun x v => Host.reduce IntOp.andi x v reducesTo_S192x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S192x128 .f32) (main_arg10 : FVec F S128 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S51200x64 .f32) (main_arg1 : FVec F S800000x64 .f32) (main_arg2 : FVec F S128x128 .f32) (main_arg3 : FVec F S192x64 .f32) (main_arg4 : FVec F S64 .f32) (main_arg5 : FVec F S64x64 .f32) (main_arg6 : FVec F S64 .f32) (main_arg7 : FVec F S64x64 .f32) (main_arg8 : FVec F S64 .f32) (main_arg9 : FVec F S192x128 .f32) (main_arg10 : FVec F S128 .f32) (main_arg11 : IVec S800000 32) (main_arg12 : IVec S800000 32) (main_arg13 : IVec S51200 32) : IVec S_ 1 :=
  let main_v0 : FVec F S51200x64 .f32 := Host.absf main_arg0
  let main_cst : FVec F S_ .f32 := constant S_ .f32 0x7F800000#32
  let main_v1 : FVec F S51200x64 .f32 := broadcastInDim S51200x64 ![] bcast_S_S51200x64 main_cst
  let main_v2 : IVec S51200x64 1 := cmpf .olt main_v0 main_v1
  let main_c : IVec S_ 1 := constantI S_ 1 1#1
  let main_v3 : IVec S_ 1 := (fun x v => Host.reduce IntOp.andi x v reducesTo_S51200x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_arg7 main_arg8 main_arg9 main_arg10 main_v13 main_v16
-- ==== Kernel.lean ====
abbrev S51200x64 : Shape := ⟨2, ![51200, 64]⟩
abbrev S800000x64 : Shape := ⟨2, ![800000, 64]⟩
abbrev S128x128 : Shape := ⟨2, ![128, 128]⟩
abbrev S192x64 : Shape := ⟨2, ![192, 64]⟩
abbrev S64 : Shape := ⟨1, ![64]⟩
abbrev S64x64 : Shape := ⟨2, ![64, 64]⟩
abbrev S192x128 : Shape := ⟨2, ![192, 128]⟩
abbrev S128 : Shape := ⟨1, ![128]⟩
abbrev S800000 : Shape := ⟨1, ![800000]⟩
abbrev S51200 : Shape := ⟨1, ![51200]⟩
abbrev S_ : Shape := ⟨0, ![]⟩
abbrev S800000x1 : Shape := ⟨2, ![800000, 1]⟩
abbrev S800000x192 : Shape := ⟨2, ![800000, 192]⟩
abbrev S1x64 : Shape := ⟨2, ![1, 64]⟩
abbrev S8000x192 : Shape := ⟨2, ![8000, 192]⟩
abbrev S8000x64 : Shape := ⟨2, ![8000, 64]⟩
abbrev S12800x64 : Shape := ⟨2, ![12800, 64]⟩
abbrev S128x64 : Shape := ⟨2, ![128, 64]⟩
abbrev S51200x1 : Shape := ⟨2, ![51200, 1]⟩
abbrev S128x192 : Shape := ⟨2, ![128, 192]⟩
abbrev S1x128 : Shape := ⟨2, ![1, 128]⟩

abbrev nBuf : Space → Nat
  | .hbm => 54
  | .vmem => 14
  | .smem => 0
  | _ => 0

abbrev bufTy : (tb : Table) → Fin (tcTables nBuf tb) → BufTy
  | .hbm, ⟨0, _⟩ => ⟨S51200x64, .f32⟩
  | .hbm, ⟨1, _⟩ => ⟨S800000x64, .f32⟩
  | .hbm, ⟨2, _⟩ => ⟨S128x128, .f32⟩
  | .hbm, ⟨3, _⟩ => ⟨S192x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x128, .f32⟩
  | .hbm, ⟨10, _⟩ => ⟨S128, .f32⟩
  | .hbm, ⟨11, _⟩ => ⟨S800000, .i32⟩
  | .hbm, ⟨12, _⟩ => ⟨S800000, .i32⟩
  | .hbm, ⟨13, _⟩ => ⟨S51200, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S800000x192, .f32⟩
  | .hbm, ⟨33, _⟩ => ⟨S1x64, .f32⟩
  | .hbm, ⟨34, _⟩ => ⟨S1x64, .f32⟩
  | .hbm, ⟨35, _⟩ => ⟨S800000x64, .f32⟩
  | .hbm, ⟨36, _⟩ => ⟨S_, .f32⟩
  | .hbm, ⟨37, _⟩ => ⟨S51200x64, .f32⟩
  | .hbm, ⟨38, _⟩ => ⟨S800000x1, .i32⟩
  | .hbm, ⟨39, _⟩ => ⟨S51200x64, .f32⟩
  | .hbm, ⟨40, _⟩ => ⟨S1x64, .f32⟩
  | .hbm, ⟨41, _⟩ => ⟨S51200x64, .f32⟩
  | .hbm, ⟨42, _⟩ => ⟨S_, .f32⟩
  | .hbm, ⟨43, _⟩ => ⟨S128x64, .f32⟩
  | .hbm, ⟨44, _⟩ => ⟨S51200x1, .i32⟩
  | .hbm, ⟨45, _⟩ => ⟨S128x64, .f32⟩
  | .hbm, ⟨46, _⟩ => ⟨S128x192, .f32⟩
  | .hbm, ⟨47, _⟩ => ⟨S128x128, .f32⟩
  | .hbm, ⟨48, _⟩ => ⟨S1x128, .f32⟩
  | .hbm, ⟨49, _⟩ => ⟨S128x128, .f32⟩
  | .hbm, ⟨50, _⟩ => ⟨S128x128, .f32⟩
  | .hbm, ⟨51, _⟩ => ⟨S_, .f32⟩
  | .hbm, ⟨52, _⟩ => ⟨S128x128, .f32⟩
  | .hbm, ⟨53, _⟩ => ⟨S128x128, .f32⟩
  | .local _ .vmem, ⟨0, _⟩ => ⟨S8000x192, .f32⟩
  | .local _ .vmem, ⟨1, _⟩ => ⟨S8000x192, .f32⟩
  | .local _ .vmem, ⟨2, _⟩ => ⟨S192x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S12800x64, .f32⟩
  | .local _ .vmem, ⟨9, _⟩ => ⟨S12800x64, .f32⟩
  | .local _ .vmem, ⟨10, _⟩ => ⟨S64x64, .f32⟩
  | .local _ .vmem, ⟨11, _⟩ => ⟨S1x64, .f32⟩
  | .local _ .vmem, ⟨12, _⟩ => ⟨S12800x64, .f32⟩
  | .local _ .vmem, ⟨13, _⟩ => ⟨S12800x64, .f32⟩
  | _, _ => ⟨S51200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S12800x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  shapeCasts_S64_S1x64 : S64.ShapeCasts S1x64
  inb_S8000x192_S8000x192_0_0 : ∀ a, (![0, 0] : Fin 2 → Nat) a + S8000x192.size a ≤ S8000x192.size a
  h_S8000x192 : 0 < S8000x192.numel
  shapeCasts_S8000x192_S8000x192 : S8000x192.ShapeCasts S8000x192
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  bcast_S_S51200x64 : S_.BroadcastsInDim S51200x64 (![] : Fin 0 → Fin S51200x64.rank)
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  broadcasts_S1x64_S12800x64 : S1x64.Broadcasts S12800x64
  bcast_S_S128x64 : S_.BroadcastsInDim S128x64 (![] : Fin 0 → Fin S128x64.rank)
  bcast_S51200_S51200x1_0 : S51200.BroadcastsInDim S51200x1 (![0] : Fin 1 → Fin S51200x1.rank)
  concatenates_S128x128_S128x64_S128x192_d1 : Shape.Concatenates [S128x128, S128x64] S128x192 1
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  gather_S51200x64_S800000x1_S800000x64_1_0_n_n_0_1_164_wf : GatherDims.WF S51200x64 S800000x1 S800000x64 [1] [0] [] [0] [] 1 ![1, 64]
  dot_S8000x192_S192x64_S8000x64_1_0_0_1_n_n_wf : DotDims.WF S8000x192 S192x64 S8000x64 [1] [0] [0] [1] [] []
  dot_S8000x64_S64x64_S8000x64_1_0_0_1_n_n_wf : DotDims.WF S8000x64 S64x64 S8000x64 [1] [0] [0] [1] [] []
  scatter_S51200x64_S800000x1_S800000x64_1_0_0_1_wf : ScatterDims.WF S51200x64 S800000x1 S800000x64 [1] [0] [0] 1
  dot_S12800x64_S64x64_S12800x64_1_0_0_1_n_n_wf : DotDims.WF S12800x64 S64x64 S12800x64 [1] [0] [0] [1] [] []
  scatter_S128x64_S51200x1_S51200x64_1_0_0_1_wf : ScatterDims.WF S128x64 S51200x1 S51200x64 [1] [0] [0] 1
  dot_S128x192_S192x128_S128x128_1_0_0_1_n_n_wf : DotDims.WF S128x192 S192x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x192.size a ≤ S800000x192.size a
  hwx0_0 : ∀ i : grid0.Coords, EltTy.bits .f32 = 32 ∨ (Rect.block (s := S800000x192) S8000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .f32 = 32 ∨ (Rect.block (s := S192x64) S192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S800000x64.size a
  hwx0_5 : ∀ i : grid0.Coords, EltTy.bits .f32 = 32 ∨ (Rect.block (s := S800000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x64.size a ≤ S51200x64.size a
  hwx1_0 : ∀ i : grid1.Coords, EltTy.bits .f32 = 32 ∨ (Rect.block (s := S51200x64) S12800x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S12800x64.size a ≤ S51200x64.size a
  hwx1_3 : ∀ i : grid1.Coords, EltTy.bits .f32 = 32 ∨ (Rect.block (s := S51200x64) S12800x64.size (cc1_transform_3 i) (hinb1_3 i)).WholeWords (EltTy.packing .f32)

variable [Facts₀]

def gather_S51200x64_S800000x1_S800000x64_1_0_n_n_0_1_164 : GatherDims S51200x64 S800000x1 S800000x64 where
  offsetDims := [1]
  collapsedSliceDims := [0]
  operandBatchingDims := []
  startIndicesBatchingDims := []
  startIndexMap := [0]
  indexVectorDim := 1
  sliceSizes := ![1, 64]
  wf := gather_S51200x64_S800000x1_S800000x64_1_0_n_n_0_1_164_wf
def dot_S8000x192_S192x64_S8000x64_1_0_0_1_n_n : DotDims S8000x192 S192x64 S8000x64 where
  lhsContracting := [1]
  rhsContracting := [0]
  lhsNonContracting := [0]
  rhsNonContracting := [1]
  lhsBatch := []
  rhsBatch := []
  wf := dot_S8000x192_S192x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S51200x64_S800000x1_S800000x64_1_0_0_1 : ScatterDims S51200x64 S800000x1 S800000x64 where
  updateWindowDims := [1]
  insertedWindowDims := [0]
  scatterDimsToOperandDims := [0]
  indexVectorDim := 1
  wf := scatter_S51200x64_S800000x1_S800000x64_1_0_0_1_wf
def dot_S12800x64_S64x64_S12800x64_1_0_0_1_n_n : DotDims S12800x64 S64x64 S12800x64 where
  lhsContracting := [1]
  rhsContracting := [0]
  lhsNonContracting := [0]
  rhsNonContracting := [1]
  lhsBatch := []
  rhsBatch := []
  wf := dot_S12800x64_S64x64_S12800x64_1_0_0_1_n_n_wf
def scatter_S128x64_S51200x1_S51200x64_1_0_0_1 : ScatterDims S128x64 S51200x1 S51200x64 where
  updateWindowDims := [1]
  insertedWindowDims := [0]
  scatterDimsToOperandDims := [0]
  indexVectorDim := 1
  wf := scatter_S128x64_S51200x1_S51200x64_1_0_0_1_wf
def dot_S128x192_S192x128_S128x128_1_0_0_1_n_n : DotDims S128x192 S192x128 S128x128 where
  lhsContracting := [1]
  rhsContracting := [0]
  lhsNonContracting := [0]
  rhsNonContracting := [1]
  lhsBatch := []
  rhsBatch := []
  wf := dot_S128x192_S192x128_S128x128_1_0_0_1_n_n_wf

abbrev win0_0 : Pipeline.Window sig grid0 :=
  Pipeline.Window.ofSpec (Memref.whole main_v14) S8000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S12800x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S12800x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S51200x64 : Shape := ⟨2, ![51200, 64]⟩
abbrev S800000x64 : Shape := ⟨2, ![800000, 64]⟩
abbrev S128x128 : Shape := ⟨2, ![128, 128]⟩
abbrev S192x64 : Shape := ⟨2, ![192, 64]⟩
abbrev S64 : Shape := ⟨1, ![64]⟩
abbrev S64x64 : Shape := ⟨2, ![64, 64]⟩
abbrev S192x128 : Shape := ⟨2, ![192, 128]⟩
abbrev S128 : Shape := ⟨1, ![128]⟩
abbrev S800000 : Shape := ⟨1, ![800000]⟩
abbrev S51200 : Shape := ⟨1, ![51200]⟩
abbrev S_ : Shape := ⟨0, ![]⟩
abbrev S800000x1 : Shape := ⟨2, ![800000, 1]⟩
abbrev S800000x192 : Shape := ⟨2, ![800000, 192]⟩
abbrev S1x64 : Shape := ⟨2, ![1, 64]⟩
abbrev S128x64 : Shape := ⟨2, ![128, 64]⟩
abbrev S51200x1 : Shape := ⟨2, ![51200, 1]⟩
abbrev S128x192 : Shape := ⟨2, ![128, 192]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S51200x64, .f32⟩
  | .hbm, ⟨1, _⟩ => ⟨S800000x64, .f32⟩
  | .hbm, ⟨2, _⟩ => ⟨S128x128, .f32⟩
  | .hbm, ⟨3, _⟩ => ⟨S192x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x128, .f32⟩
  | .hbm, ⟨10, _⟩ => ⟨S128, .f32⟩
  | .hbm, ⟨11, _⟩ => ⟨S800000, .i32⟩
  | .hbm, ⟨12, _⟩ => ⟨S800000, .i32⟩
  | .hbm, ⟨13, _⟩ => ⟨S51200, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S800000x192, .f32⟩
  | .hbm, ⟨33, _⟩ => ⟨S800000x64, .f32⟩
  | .hbm, ⟨34, _⟩ => ⟨S1x64, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S800000x64, .f32⟩
  | .hbm, ⟨41, _⟩ => ⟨S1x64, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S51200x64, .f32⟩
  | .hbm, ⟨49, _⟩ => ⟨S800000x1, .i32⟩
  | .hbm, ⟨50, _⟩ => ⟨S51200x64, .f32⟩
  | .hbm, ⟨51, _⟩ => ⟨S51200x64, .f32⟩
  | .hbm, ⟨52, _⟩ => ⟨S1x64, .f32⟩
  | .hbm, ⟨53, _⟩ => ⟨S51200x64, .f32⟩
  | .hbm, ⟨54, _⟩ => ⟨S51200x64, .f32⟩
  | .hbm, ⟨55, _⟩ => ⟨S_, .f32⟩
  | .hbm, ⟨56, _⟩ => ⟨S128x64, .f32⟩
  | .hbm, ⟨57, _⟩ => ⟨S51200x1, .i32⟩
  | .hbm, ⟨58, _⟩ => ⟨S128x64, .f32⟩
  | .hbm, ⟨59, _⟩ => ⟨S128x192, .f32⟩
  | .hbm, ⟨60, _⟩ => ⟨S128x128, .f32⟩
  | .hbm, ⟨61, _⟩ => ⟨S1x128, .f32⟩
  | .hbm, ⟨62, _⟩ => ⟨S128x128, .f32⟩
  | .hbm, ⟨63, _⟩ => ⟨S128x128, .f32⟩
  | .hbm, ⟨64, _⟩ => ⟨S_, .f32⟩
  | .hbm, ⟨65, _⟩ => ⟨S128x128, .f32⟩
  | .hbm, ⟨66, _⟩ => ⟨S128x128, .f32⟩
  | _, _ => ⟨S51200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_cst : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S51200x64 : S_.BroadcastsInDim S51200x64 (![] : Fin 0 → Fin S51200x64.rank)
  bcast_S1x64_S51200x64_0_1 : S1x64.BroadcastsInDim S51200x64 (![0, 1] : Fin 2 → Fin S51200x64.rank)
  bcast_S_S128x64 : S_.BroadcastsInDim S128x64 (![] : Fin 0 → Fin S128x64.rank)
  bcast_S51200_S51200x1_0 : S51200.BroadcastsInDim S51200x1 (![0] : Fin 1 → Fin S51200x1.rank)
  concatenates_S128x128_S128x64_S128x192_d1 : Shape.Concatenates [S128x128, S128x64] S128x192 1
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  gather_S51200x64_S800000x1_S800000x64_1_0_n_n_0_1_164_wf : GatherDims.WF S51200x64 S800000x1 S800000x64 [1] [0] [] [0] [] 1 ![1, 64]
  dot_S800000x192_S192x64_S800000x64_1_0_0_1_n_n_wf : DotDims.WF S800000x192 S192x64 S800000x64 [1] [0] [0] [1] [] []
  dot_S800000x64_S64x64_S800000x64_1_0_0_1_n_n_wf : DotDims.WF S800000x64 S64x64 S800000x64 [1] [0] [0] [1] [] []
  scatter_S51200x64_S800000x1_S800000x64_1_0_0_1_wf : ScatterDims.WF S51200x64 S800000x1 S800000x64 [1] [0] [0] 1
  dot_S51200x64_S64x64_S51200x64_1_0_0_1_n_n_wf : DotDims.WF S51200x64 S64x64 S51200x64 [1] [0] [0] [1] [] []
  scatter_S128x64_S51200x1_S51200x64_1_0_0_1_wf : ScatterDims.WF S128x64 S51200x1 S51200x64 [1] [0] [0] 1
  dot_S128x192_S192x128_S128x128_1_0_0_1_n_n_wf : DotDims.WF S128x192 S192x128 S128x128 [1] [0] [0] [1] [] []

variable [Facts₀]

def gather_S51200x64_S800000x1_S800000x64_1_0_n_n_0_1_164 : GatherDims S51200x64 S800000x1 S800000x64 where
  offsetDims := [1]
  collapsedSliceDims := [0]
  operandBatchingDims := []
  startIndicesBatchingDims := []
  startIndexMap := [0]
  indexVectorDim := 1
  sliceSizes := ![1, 64]
  wf := gather_S51200x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S51200x64_S800000x1_S800000x64_1_0_0_1 : ScatterDims S51200x64 S800000x1 S800000x64 where
  updateWindowDims := [1]
  insertedWindowDims := [0]
  scatterDimsToOperandDims := [0]
  indexVectorDim := 1
  wf := scatter_S51200x64_S800000x1_S800000x64_1_0_0_1_wf
def dot_S51200x64_S64x64_S51200x64_1_0_0_1_n_n : DotDims S51200x64 S64x64 S51200x64 where
  lhsContracting := [1]
  rhsContracting := [0]
  lhsNonContracting := [0]
  rhsNonContracting := [1]
  lhsBatch := []
  rhsBatch := []
  wf := dot_S51200x64_S64x64_S51200x64_1_0_0_1_n_n_wf
def scatter_S128x64_S51200x1_S51200x64_1_0_0_1 : ScatterDims S128x64 S51200x1 S51200x64 where
  updateWindowDims := [1]
  insertedWindowDims := [0]
  scatterDimsToOperandDims := [0]
  indexVectorDim := 1
  wf := scatter_S128x64_S51200x1_S51200x64_1_0_0_1_wf
def dot_S128x192_S192x128_S128x128_1_0_0_1_n_n : DotDims S128x192 S192x128 S128x128 where
  lhsContracting := [1]
  rhsContracting := [0]
  lhsNonContracting := [0]
  rhsNonContracting := [1]
  lhsBatch := []
  rhsBatch := []
  wf := dot_S128x192_S192x128_S128x128_1_0_0_1_n_n_wf

class Facts : Prop extends Facts₀ where

variable [Facts]
-- ==== Proof.Kernel.Region0.lean ====
import proofs.«135959_j29403346108688_1_alg».proof.Proof.Gen.Kernel.Launch
import proofs.«135959_j29403346108688_1_alg».proof.Proof.Gen.Kernel.Skeleton
import proofs.«135959_j29403346108688_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The edge network's call (the program's first kernel call), at the contents `V` its arrays are entered with

Each grid point `t` of the hundred takes rows `8000 t … 8000 t + 7999` of the edge inputs (window 0), the two weight
matrices and the two bias rows whole (windows 1 to 4, the same block at every point), and writes the same rows of the
result (window 5). -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-buffer accesses -/

abbrev rIn0 : Rect S8000x192 := Rect.unit (s := S8000x192) ![0, 0] S8000x192.size inb_S8000x192_S8000x192_0_0
abbrev rW1 : Rect S192x64 := Rect.unit (s := S192x64) ![0, 0] S192x64.size inb_S192x64_S192x64_0_0
abbrev rB0 : Rect S1x64 := Rect.unit (s := S1x64) ![0, 0] S1x64.size inb_S1x64_S1x64_0_0
abbrev rW2 : Rect S64x64 := Rect.unit (s := S64x64) ![0, 0] S64x64.size inb_S64x64_S64x64_0_0
abbrev rOut0 : Rect S8000x64 := Rect.unit (s := S8000x64) ![0, 0] S8000x64.size inb_S8000x64_S8000x64_0_0

/-- The result window's staging buffer after the body: its one whole-buffer store, of the two-layer network's value on
    the five input blocks. -/
def out0_5 (x0 : Vec F S8000x192 .f32) (x1 : Vec F S192x64 .f32) (x2 : Vec F S1x64 .f32) (x3 : Vec F S64x64 .f32) (x4 : Vec F S1x64 .f32) : Vec F S8000x64 .f32 :=
  View.canon [⟨rOut0, k0_pay1 (View.ld x0 rIn0) (View.ld x1 rW1) (View.ld x2 rB0) (View.ld x3 rW2) (View.ld x4 rB0)⟩]

/-- The one store covers the buffer. -/
theorem cover0_5 (p0 : Vec F S8000x64 .f32) (y : S8000x64.Idx) :
    ∃ pc ∈ ([⟨rOut0, p0⟩] : List (View.Piece (Elt F) S8000x64 .f32)), y ∈ pc.1.set :=
  View.cover_of_tiled [⟨rOut0, p0⟩] S8000x64.size (by rfl) y

/-! ## The body's triple -/

set_option maxHeartbeats 1000000 in
/-- The body on whole staging memrefs, the inputs' at contents `x0 … x4` and the result's at anything, runs to the
    continuation holding the inputs' as they were and the result's at `out0_5` of them. (The body also loads the result's
    buffer before it stores into it; the loaded value is not used.) -/
theorem sound_kernel0 (c : Dev nD) (E : Set ℕ) (i : grid0.Coords)
    (arg1 : Memref sig .tc .vmem S8000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (x0 : Vec F S8000x192 .f32) (x1 : Vec F S192x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The call's proof data -/

/-- The proof data of this call on core `c`: the arrays as the call finds them; after the body at point `t` each input's
    buffer still at its block and the result's at `out0_5` of the input blocks; nothing else kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
import proofs.«135959_j29403346108688_1_alg».proof.Proof.Gen.Kernel.Launch
import proofs.«135959_j29403346108688_1_alg».proof.Proof.Gen.Kernel.Skeleton
import proofs.«135959_j29403346108688_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node layer's call (the program's second kernel call), at the contents `V` its arrays are entered with

Each grid point `t` of the four takes rows `12800 t … 12800 t + 12799` of the aggregated messages (window 0), the weight
matrix and the bias row whole (windows 1 and 2, the same block at every point), and writes the same rows of the result
(window 3). -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's whole-buffer accesses -/

abbrev rIn1 : Rect S12800x64 := Rect.unit (s := S12800x64) ![0, 0] S12800x64.size inb_S12800x64_S12800x64_0_0
abbrev rWn : Rect S64x64 := Rect.unit (s := S64x64) ![0, 0] S64x64.size inb_S64x64_S64x64_0_0
abbrev rB1 : Rect S1x64 := Rect.unit (s := S1x64) ![0, 0] S1x64.size inb_S1x64_S1x64_0_0

/-- The result window's staging buffer after the body: its one whole-buffer store, of the linear layer's value on the
    three input blocks. -/
def out1_3 (x0 : Vec F S12800x64 .f32) (x1 : Vec F S64x64 .f32) (x2 : Vec F S1x64 .f32) : Vec F S12800x64 .f32 :=
  View.canon [⟨rIn1, k1_pay1 (View.ld x0 rIn1) (View.ld x1 rWn) (View.ld x2 rB1)⟩]

/-- The one store covers the buffer. -/
theorem cover1_3 (p0 : Vec F S12800x64 .f32) (y : S12800x64.Idx) :
    ∃ pc ∈ ([⟨rIn1, p0⟩] : List (View.Piece (Elt F) S12800x64 .f32)), y ∈ pc.1.set :=
  View.cover_of_tiled [⟨rIn1, p0⟩] S12800x64.size (by rfl) y

/-! ## The body's triple -/

set_option maxHeartbeats 1000000 in
/-- The body on whole staging memrefs, the inputs' at contents `x0 x1 x2` and the result's at anything, runs to the
    continuation holding the inputs' as they were and the result's at `out1_3` of them. (The body also loads the result's
    buffer before it stores into it; the loaded value is not used.) -/
theorem sound_kernel1 (c : Dev nD) (E : Set ℕ) (i : grid1.Coords)
    (arg1 : Memref sig .tc .vmem S12800x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S12800x64 .f32) (harg4 : arg4.IsWhole)
    (x0 : Vec F S12800x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__node_linear_kernel i arg1 harg1 arg2 harg2 arg3 harg3 arg4 harg4) K := by
  simp only [cc1__node_linear_kernel_eq_skeleton]; unfold cc1__node_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The call's proof data -/

/-- The proof data of this call on core `c`: the arrays as the call finds them; after the body at point `t` each input's
    buffer still at its block and the result's at `out1_3` of the input blocks; nothing else kept, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
import proofs.«135959_j29403346108688_1_alg».proof.Proof.Gen.Kernel.Launch
import proofs.«135959_j29403346108688_1_alg».proof.Proof.Gen.Kernel.Skeleton
import proofs.«135959_j29403346108688_1_alg».proof.Proof.Gen.Kernel.Points
import proofs.«135959_j29403346108688_1_alg».proof.Proof.Kernel.Region0
import proofs.«135959_j29403346108688_1_alg».proof.Proof.Kernel.Region1
import proofs.«135959_j29403346108688_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run of @main

@main is six items: the host operations that gather the two end-point rows of every edge and join them with the edge's
own features; the edge network's call; the host operations that sum the messages into their destination nodes; the node
layer's call; the host operations that sum the nodes into their graphs, join with the graphs' own features and apply the
last dense layer; and the closing maximum with zero. The contents of every unscoped buffer are followed from the launch
memory through the six items; a call changes only its result array, which ends at what its write-backs leave. -/

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => (s₀ m ρ).mem ((c : Dev nD), b)
/-- After the first host stretch (the edge call's entry). -/
abbrev W1 : Dev nD → Valuation τ sig (Elt F) := fun c => StableHlo.after hostOps0 (W0 m ρ c)
/-- The same read at the TensorCore's references (what the edge call's proof data take). -/
abbrev Ent0 : (c : Dev nD) → (b : Ref sig .tc) → Buf (Elt F) ((c : Thread nD τ).loc b) := fun c b => W1 m ρ c b
/-- At the edge call's exit: its arrays at what the call leaves, every other buffer as entered. -/
def W2 (c : Dev nD) : Valuation τ sig (Elt F) :=
  Pipeline.withArrays spec0 c (W1 m ρ c) fun w => (dat0 (Ent0 m ρ) c).arrAt w cfg0.N
theorem W2_arr (c : Dev nD) (w : Fin cfg0.W) :
    W2 m ρ c (Proc.devRef .tc (Pipeline.arrRef spec0 w)) = (dat0 (Ent0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Ext0 : (c : Dev nD) → (b : Ref sig .tc) → Buf (Elt F) ((c : Thread nD τ).loc b) := fun c b => W2 m ρ c b
theorem hF0 (c : Dev nD) (w : Fin cfg0.W) : (dat0 (Ent0 m ρ) c).arrAt w cfg0.N = Ext0 m ρ c (Pipeline.arrRef spec0 w) :=
  (W2_arr m ρ c w).symm
theorem hrest0 (c : Dev nD) : ∀ b, b ∉ Finset.univ.image (Pipeline.arrRef spec0) → Ext0 m ρ c b = Ent0 m ρ c b :=
  fun b hb => W2_of_ne m ρ c b fun w e => hb (Finset.mem_image.mpr ⟨w, Finset.mem_univ _, e⟩)

/-- After the second host stretch (the node call's entry). -/
abbrev W3 : Dev nD → Valuation τ sig (Elt F) := fun c => StableHlo.after hostOps1 (W2 m ρ c)
abbrev Ent1 : (c : Dev nD) → (b : Ref sig .tc) → Buf (Elt F) ((c : Thread nD τ).loc b) := fun c b => W3 m ρ c b
/-- At the node call's exit: its arrays at what the call leaves, every other buffer as entered. -/
def W4 (c : Dev nD) : Valuation τ sig (Elt F) :=
  Pipeline.withArrays spec1 c (W3 m ρ c) fun w => (dat1 (Ent1 m ρ) c).arrAt w cfg1.N
theorem W4_arr (c : Dev nD) (w : Fin cfg1.W) :
    W4 m ρ c (Proc.devRef .tc (Pipeline.arrRef spec1 w)) = (dat1 (Ent1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Ext1 : (c : Dev nD) → (b : Ref sig .tc) → Buf (Elt F) ((c : Thread nD τ).loc b) := fun c b => W4 m ρ c b
theorem hF1 (c : Dev nD) (w : Fin cfg1.W) : (dat1 (Ent1 m ρ) c).arrAt w cfg1.N = Ext1 m ρ c (Pipeline.arrRef spec1 w) :=
  (W4_arr m ρ c w).symm
theorem hrest1 (c : Dev nD) : ∀ b, b ∉ Finset.univ.image (Pipeline.arrRef spec1) → Ext1 m ρ c b = Ent1 m ρ c b :=
  fun b hb => W4_of_ne m ρ c b fun w e => hb (Finset.mem_image.mpr ⟨w, Finset.mem_univ _, e⟩)

/-- After the third host stretch. -/
abbrev W5 : Dev nD → Valuation τ sig (Elt F) := fun c => StableHlo.after hostOps2 (W4 m ρ c)
/-- After the closing maximum with zero: the contents @main ends with. -/
abbrev W6 : Dev nD → Valuation τ sig (Elt F) := fun c => StableHlo.after hostOps2_1 (W5 m ρ c)

/-! ## A buffer no item writes ends as launched -/

/-- A call keeps every array it only reads: the edge call changes its result array alone. -/
theorem W2_keep (c : Dev nD) (b : Ref sig .tc) (hb : b ≠ main_v17) :
    W2 m ρ c (Proc.devRef .tc b) = W1 m ρ c (Proc.devRef .tc b) := by
  by_cases h : ∃ w, Pipeline.arrRef spec0 w = b
  · obtain ⟨w, rfl⟩ := h
    have key : ∀ w : Fin 6, Pipeline.arrRef spec0 w ≠ main_v17 → (cfg0.win w).isOut = false := by decide
    exact (W2_arr m ρ c w).trans (((dat0 (Ent0 m ρ) c).arrAt_in w (key w hb) _).trans (A_eq0 (Ent0 m ρ) c w))
  · exact W2_of_ne m ρ c b (fun w e => h ⟨w, e⟩)

/-- The node call changes its result array alone. -/
theorem W4_keep (c : Dev nD) (b : Ref sig .tc) (hb : b ≠ main_v22) :
    W4 m ρ c (Proc.devRef .tc b) = W3 m ρ c (Proc.devRef .tc b) := by
  by_cases h : ∃ w, Pipeline.arrRef spec1 w = b
  · obtain ⟨w, rfl⟩ := h
    have key : ∀ w : Fin 4, Pipeline.arrRef spec1 w ≠ main_v22 → (cfg1.win w).isOut = false := by decide
    exact (W4_arr m ρ c w).trans (((dat1 (Ent1 m ρ) c).arrAt_in w (key w hb) _).trans (A_eq1 (Ent1 m ρ) c w))
  · exact W4_of_ne m ρ c b (fun w e => h ⟨w, e⟩)

/-- A buffer that no host stretch writes and that is no call's result ends @main as launched. -/
theorem W6_kept (c : Dev nD) (b : Ref sig .tc) (h0 : b ∉ hostOps0_W) (h1 : b ≠ main_v17) (h2 : b ∉ hostOps1_W)
    (h3 : b ≠ main_v22) (h4 : b ∉ hostOps2_W) (h5 : b ∉ hostOps2_1_W) :
    W6 m ρ c (Proc.devRef .tc b) = m ((c : Thread nD τ).loc b) :=
  calc W6 m ρ c (Proc.devRef .tc b)
    _ = W5 m ρ c (Proc.devRef .tc b) := StableHlo.after_of_writes_sub hostOps2_1 _ hostOps2_1_writes h5
    _ = W4 m ρ c (Proc.devRef .tc b) := StableHlo.after_of_writes_sub hostOps2 _ hostOps2_writes h4
    _ = W3 m ρ c (Proc.devRef .tc b) := W4_keep m ρ c b h3
    _ = W2 m ρ c (Proc.devRef .tc b) := StableHlo.after_of_writes_sub hostOps1 _ hostOps1_writes h2
    _ = W1 m ρ c (Proc.devRef .tc b) := W2_keep m ρ c b h1
    _ = W0 m ρ c (Proc.devRef .tc b) := StableHlo.after_of_writes_sub hostOps0 _ hostOps0_writes h0
    _ = m ((c : Thread nD τ).loc b) := rfl

/-! ## The proof data family and the thread state -/

/-- No call has a prefetched table. -/
abbrev padm : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (Pipeline.pin (pcfgs (F := F)) padm p) c
  | ⟨0, _⟩ => fun c => dat0 (Ent0 m ρ) c
  | ⟨1, _⟩ => fun c => dat1 (Ent1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some
    state. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- The edge network's call over the thread state: entered from every unscoped buffer at `W1`, left at `W2`. Its arrays
    are split out of the unscoped buffers and put back at the exit contents; the generator register goes into the call's
    invariant and out; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ent0 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (Ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (Ent0 m ρ c) (Ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node layer's call over the thread state: entered from every unscoped buffer at `W3`, left at `W4`. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ent1 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (Ent1 m ρ c) (Ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has every unscoped buffer at the last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) padm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c)
          ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      (h c _ (mem_uc main_arg0 (by decide))).trans (W6_kept m ρ c main_arg0 (by decide) (by decide) (by decide) (by decide) (by decide) (by decide)),
      (h c _ (mem_uc main_arg1 (by decide))).trans (W6_kept m ρ c main_arg1 (by decide) (by decide) (by decide) (by decide) (by decide) (by decide)),
      (h c _ (mem_uc main_arg2 (by decide))).trans (W6_kept m ρ c main_arg2 (by decide) (by decide) (by decide) (by decide) (by decide) (by decide)),
      (h c _ (mem_uc main_arg3 (by decide))).trans (W6_kept m ρ c main_arg3 (by decide) (by decide) (by decide) (by decide) (by decide) (by decide)),
      (h c _ (mem_uc main_arg4 (by decide))).trans (W6_kept m ρ c main_arg4 (by decide) (by decide) (by decide) (by decide) (by decide) (by decide)),
      (h c _ (mem_uc main_arg5 (by decide))).trans (W6_kept m ρ c main_arg5 (by decide) (by decide) (by decide) (by decide) (by decide) (by decide)),
      (h c _ (mem_uc main_arg6 (by decide))).trans (W6_kept m ρ c main_arg6 (by decide) (by decide) (by decide) (by decide) (by decide) (by decide)),
      (h c _ (mem_uc main_arg7 (by decide))).trans (W6_kept m ρ c main_arg7 (by decide) (by decide) (by decide) (by decide) (by decide) (by decide)),
      (h c _ (mem_uc main_arg8 (by decide))).trans (W6_kept m ρ c main_arg8 (by decide) (by decide) (by decide) (by decide) (by decide) (by decide)),
      (h c _ (mem_uc main_arg9 (by decide))).trans (W6_kept m ρ c main_arg9 (by decide) (by decide) (by decide) (by decide) (by decide) (by decide)),
      (h c _ (mem_uc main_arg10 (by decide))).trans (W6_kept m ρ c main_arg10 (by decide) (by decide) (by decide) (by decide) (by decide) (by decide)),
      (h c _ (mem_uc main_arg11 (by decide))).trans (W6_kept m ρ c main_arg11 (by decide) (by decide) (by decide) (by decide) (by decide) (by decide)),
      (h c _ (mem_uc main_arg12 (by decide))).trans (W6_kept m ρ c main_arg12 (by decide) (by decide) (by decide) (by decide) (by decide) (by decide)),
      (h c _ (mem_uc main_arg13 (by decide))).trans (W6_kept m ρ c main_arg13 (by decide) (by decide) (by decide) (by decide) (by decide) (by decide))⟩)
    (run_all m ρ)

end Cert.Kernel.Hand

end
-- ==== Proof.KernelIdeal.Region0.lean ====
import proofs.«135959_j29403346108688_1_alg».proof.Proof.Gen.KernelIdeal.Launch
import proofs.«135959_j29403346108688_1_alg».proof.Proof.Gen.KernelIdeal.Skeleton
import proofs.«135959_j29403346108688_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The edge network's call (the program's first kernel call), at the contents `V` its arrays are entered with

Each grid point `t` of the hundred takes rows `8000 t … 8000 t + 7999` of the edge inputs (window 0), the two weight
matrices and the two bias rows whole (windows 1 to 4, the same block at every point), and writes the same rows of the
result (window 5). -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-buffer accesses -/

abbrev rIn0 : Rect S8000x192 := Rect.unit (s := S8000x192) ![0, 0] S8000x192.size inb_S8000x192_S8000x192_0_0
abbrev rW1 : Rect S192x64 := Rect.unit (s := S192x64) ![0, 0] S192x64.size inb_S192x64_S192x64_0_0
abbrev rB0 : Rect S1x64 := Rect.unit (s := S1x64) ![0, 0] S1x64.size inb_S1x64_S1x64_0_0
abbrev rW2 : Rect S64x64 := Rect.unit (s := S64x64) ![0, 0] S64x64.size inb_S64x64_S64x64_0_0
abbrev rOut0 : Rect S8000x64 := Rect.unit (s := S8000x64) ![0, 0] S8000x64.size inb_S8000x64_S8000x64_0_0

/-- The result window's staging buffer after the body: its one whole-buffer store, of the two-layer network's value on
    the five input blocks. -/
def out0_5 (x0 : Vec F S8000x192 .f32) (x1 : Vec F S192x64 .f32) (x2 : Vec F S1x64 .f32) (x3 : Vec F S64x64 .f32) (x4 : Vec F S1x64 .f32) : Vec F S8000x64 .f32 :=
  View.canon [⟨rOut0, k0_pay1 (View.ld x0 rIn0) (View.ld x1 rW1) (View.ld x2 rB0) (View.ld x3 rW2) (View.ld x4 rB0)⟩]

/-- The one store covers the buffer. -/
theorem cover0_5 (p0 : Vec F S8000x64 .f32) (y : S8000x64.Idx) :
    ∃ pc ∈ ([⟨rOut0, p0⟩] : List (View.Piece (Elt F) S8000x64 .f32)), y ∈ pc.1.set :=
  View.cover_of_tiled [⟨rOut0, p0⟩] S8000x64.size (by rfl) y

/-! ## The body's triple -/

set_option maxHeartbeats 1000000 in
/-- The body on whole staging memrefs, the inputs' at contents `x0 … x4` and the result's at anything, runs to the
    continuation holding the inputs' as they were and the result's at `out0_5` of them. (The body also loads the result's
    buffer before it stores into it; the loaded value is not used.) -/
theorem sound_kernel0 (c : Dev nD) (E : Set ℕ) (i : grid0.Coords)
    (arg1 : Memref sig .tc .vmem S8000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (x0 : Vec F S8000x192 .f32) (x1 : Vec F S192x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The call's proof data -/

/-- The proof data of this call on core `c`: the arrays as the call finds them; after the body at point `t` each input's
    buffer still at its block and the result's at `out0_5` of the input blocks; nothing else kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
import proofs.«135959_j29403346108688_1_alg».proof.Proof.Gen.KernelIdeal.Launch
import proofs.«135959_j29403346108688_1_alg».proof.Proof.Gen.KernelIdeal.Skeleton
import proofs.«135959_j29403346108688_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The node layer's call (the program's second kernel call), at the contents `V` its arrays are entered with

Each grid point `t` of the four takes rows `12800 t … 12800 t + 12799` of the aggregated messages (window 0), the weight
matrix and the bias row whole (windows 1 and 2, the same block at every point), and writes the same rows of the result
(window 3). -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's whole-buffer accesses -/

abbrev rIn1 : Rect S12800x64 := Rect.unit (s := S12800x64) ![0, 0] S12800x64.size inb_S12800x64_S12800x64_0_0
abbrev rWn : Rect S64x64 := Rect.unit (s := S64x64) ![0, 0] S64x64.size inb_S64x64_S64x64_0_0
abbrev rB1 : Rect S1x64 := Rect.unit (s := S1x64) ![0, 0] S1x64.size inb_S1x64_S1x64_0_0

/-- The result window's staging buffer after the body: its one whole-buffer store, of the linear layer's value on the
    three input blocks. -/
def out1_3 (x0 : Vec F S12800x64 .f32) (x1 : Vec F S64x64 .f32) (x2 : Vec F S1x64 .f32) : Vec F S12800x64 .f32 :=
  View.canon [⟨rIn1, k1_pay1 (View.ld x0 rIn1) (View.ld x1 rWn) (View.ld x2 rB1)⟩]

/-- The one store covers the buffer. -/
theorem cover1_3 (p0 : Vec F S12800x64 .f32) (y : S12800x64.Idx) :
    ∃ pc ∈ ([⟨rIn1, p0⟩] : List (View.Piece (Elt F) S12800x64 .f32)), y ∈ pc.1.set :=
  View.cover_of_tiled [⟨rIn1, p0⟩] S12800x64.size (by rfl) y

/-! ## The body's triple -/

set_option maxHeartbeats 1000000 in
/-- The body on whole staging memrefs, the inputs' at contents `x0 x1 x2` and the result's at anything, runs to the
    continuation holding the inputs' as they were and the result's at `out1_3` of them. (The body also loads the result's
    buffer before it stores into it; the loaded value is not used.) -/
theorem sound_kernel1 (c : Dev nD) (E : Set ℕ) (i : grid1.Coords)
    (arg1 : Memref sig .tc .vmem S12800x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S12800x64 .f32) (harg4 : arg4.IsWhole)
    (x0 : Vec F S12800x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__node_linear_kernel i arg1 harg1 arg2 harg2 arg3 harg3 arg4 harg4) K := by
  simp only [cc1__node_linear_kernel_eq_skeleton]; unfold cc1__node_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The call's proof data -/

/-- The proof data of this call on core `c`: the arrays as the call finds them; after the body at point `t` each input's
    buffer still at its block and the result's at `out1_3` of the input blocks; nothing else kept, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
import proofs.«135959_j29403346108688_1_alg».proof.Proof.Gen.KernelIdeal.Launch
import proofs.«135959_j29403346108688_1_alg».proof.Proof.Gen.KernelIdeal.Skeleton
import proofs.«135959_j29403346108688_1_alg».proof.Proof.Gen.KernelIdeal.Points
import proofs.«135959_j29403346108688_1_alg».proof.Proof.KernelIdeal.Region0
import proofs.«135959_j29403346108688_1_alg».proof.Proof.KernelIdeal.Region1
import proofs.«135959_j29403346108688_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run of @main

@main is six items: the host operations that gather the two end-point rows of every edge and join them with the edge's
own features; the edge network's call; the host operations that sum the messages into their destination nodes; the node
layer's call; the host operations that sum the nodes into their graphs, join with the graphs' own features and apply the
last dense layer; and the closing maximum with zero. The contents of every unscoped buffer are followed from the launch
memory through the six items; a call changes only its result array, which ends at what its write-backs leave. -/

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => (s₀ m ρ).mem ((c : Dev nD), b)
/-- After the first host stretch (the edge call's entry). -/
abbrev W1 : Dev nD → Valuation τ sig (Elt F) := fun c => StableHlo.after hostOps0 (W0 m ρ c)
/-- The same read at the TensorCore's references (what the edge call's proof data take). -/
abbrev Ent0 : (c : Dev nD) → (b : Ref sig .tc) → Buf (Elt F) ((c : Thread nD τ).loc b) := fun c b => W1 m ρ c b
/-- At the edge call's exit: its arrays at what the call leaves, every other buffer as entered. -/
def W2 (c : Dev nD) : Valuation τ sig (Elt F) :=
  Pipeline.withArrays spec0 c (W1 m ρ c) fun w => (dat0 (Ent0 m ρ) c).arrAt w cfg0.N
theorem W2_arr (c : Dev nD) (w : Fin cfg0.W) :
    W2 m ρ c (Proc.devRef .tc (Pipeline.arrRef spec0 w)) = (dat0 (Ent0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Ext0 : (c : Dev nD) → (b : Ref sig .tc) → Buf (Elt F) ((c : Thread nD τ).loc b) := fun c b => W2 m ρ c b
theorem hF0 (c : Dev nD) (w : Fin cfg0.W) : (dat0 (Ent0 m ρ) c).arrAt w cfg0.N = Ext0 m ρ c (Pipeline.arrRef spec0 w) :=
  (W2_arr m ρ c w).symm
theorem hrest0 (c : Dev nD) : ∀ b, b ∉ Finset.univ.image (Pipeline.arrRef spec0) → Ext0 m ρ c b = Ent0 m ρ c b :=
  fun b hb => W2_of_ne m ρ c b fun w e => hb (Finset.mem_image.mpr ⟨w, Finset.mem_univ _, e⟩)

/-- After the second host stretch (the node call's entry). -/
abbrev W3 : Dev nD → Valuation τ sig (Elt F) := fun c => StableHlo.after hostOps1 (W2 m ρ c)
abbrev Ent1 : (c : Dev nD) → (b : Ref sig .tc) → Buf (Elt F) ((c : Thread nD τ).loc b) := fun c b => W3 m ρ c b
/-- At the node call's exit: its arrays at what the call leaves, every other buffer as entered. -/
def W4 (c : Dev nD) : Valuation τ sig (Elt F) :=
  Pipeline.withArrays spec1 c (W3 m ρ c) fun w => (dat1 (Ent1 m ρ) c).arrAt w cfg1.N
theorem W4_arr (c : Dev nD) (w : Fin cfg1.W) :
    W4 m ρ c (Proc.devRef .tc (Pipeline.arrRef spec1 w)) = (dat1 (Ent1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Ext1 : (c : Dev nD) → (b : Ref sig .tc) → Buf (Elt F) ((c : Thread nD τ).loc b) := fun c b => W4 m ρ c b
theorem hF1 (c : Dev nD) (w : Fin cfg1.W) : (dat1 (Ent1 m ρ) c).arrAt w cfg1.N = Ext1 m ρ c (Pipeline.arrRef spec1 w) :=
  (W4_arr m ρ c w).symm
theorem hrest1 (c : Dev nD) : ∀ b, b ∉ Finset.univ.image (Pipeline.arrRef spec1) → Ext1 m ρ c b = Ent1 m ρ c b :=
  fun b hb => W4_of_ne m ρ c b fun w e => hb (Finset.mem_image.mpr ⟨w, Finset.mem_univ _, e⟩)

/-- After the third host stretch. -/
abbrev W5 : Dev nD → Valuation τ sig (Elt F) := fun c => StableHlo.after hostOps2 (W4 m ρ c)
/-- After the closing maximum with zero: the contents @main ends with. -/
abbrev W6 : Dev nD → Valuation τ sig (Elt F) := fun c => StableHlo.after hostOps2_1 (W5 m ρ c)

/-! ## A buffer no item writes ends as launched -/

/-- A call keeps every array it only reads: the edge call changes its result array alone. -/
theorem W2_keep (c : Dev nD) (b : Ref sig .tc) (hb : b ≠ main_v17) :
    W2 m ρ c (Proc.devRef .tc b) = W1 m ρ c (Proc.devRef .tc b) := by
  by_cases h : ∃ w, Pipeline.arrRef spec0 w = b
  · obtain ⟨w, rfl⟩ := h
    have key : ∀ w : Fin 6, Pipeline.arrRef spec0 w ≠ main_v17 → (cfg0.win w).isOut = false := by decide
    exact (W2_arr m ρ c w).trans (((dat0 (Ent0 m ρ) c).arrAt_in w (key w hb) _).trans (A_eq0 (Ent0 m ρ) c w))
  · exact W2_of_ne m ρ c b (fun w e => h ⟨w, e⟩)

/-- The node call changes its result array alone. -/
theorem W4_keep (c : Dev nD) (b : Ref sig .tc) (hb : b ≠ main_v22) :
    W4 m ρ c (Proc.devRef .tc b) = W3 m ρ c (Proc.devRef .tc b) := by
  by_cases h : ∃ w, Pipeline.arrRef spec1 w = b
  · obtain ⟨w, rfl⟩ := h
    have key : ∀ w : Fin 4, Pipeline.arrRef spec1 w ≠ main_v22 → (cfg1.win w).isOut = false := by decide
    exact (W4_arr m ρ c w).trans (((dat1 (Ent1 m ρ) c).arrAt_in w (key w hb) _).trans (A_eq1 (Ent1 m ρ) c w))
  · exact W4_of_ne m ρ c b (fun w e => h ⟨w, e⟩)

/-- A buffer that no host stretch writes and that is no call's result ends @main as launched. -/
theorem W6_kept (c : Dev nD) (b : Ref sig .tc) (h0 : b ∉ hostOps0_W) (h1 : b ≠ main_v17) (h2 : b ∉ hostOps1_W)
    (h3 : b ≠ main_v22) (h4 : b ∉ hostOps2_W) (h5 : b ∉ hostOps2_1_W) :
    W6 m ρ c (Proc.devRef .tc b) = m ((c : Thread nD τ).loc b) :=
  calc W6 m ρ c (Proc.devRef .tc b)
    _ = W5 m ρ c (Proc.devRef .tc b) := StableHlo.after_of_writes_sub hostOps2_1 _ hostOps2_1_writes h5
    _ = W4 m ρ c (Proc.devRef .tc b) := StableHlo.after_of_writes_sub hostOps2 _ hostOps2_writes h4
    _ = W3 m ρ c (Proc.devRef .tc b) := W4_keep m ρ c b h3
    _ = W2 m ρ c (Proc.devRef .tc b) := StableHlo.after_of_writes_sub hostOps1 _ hostOps1_writes h2
    _ = W1 m ρ c (Proc.devRef .tc b) := W2_keep m ρ c b h1
    _ = W0 m ρ c (Proc.devRef .tc b) := StableHlo.after_of_writes_sub hostOps0 _ hostOps0_writes h0
    _ = m ((c : Thread nD τ).loc b) := rfl

/-! ## The proof data family and the thread state -/

/-- No call has a prefetched table. -/
abbrev padm : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (Pipeline.pin (pcfgs (F := F)) padm p) c
  | ⟨0, _⟩ => fun c => dat0 (Ent0 m ρ) c
  | ⟨1, _⟩ => fun c => dat1 (Ent1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some
    state. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- The edge network's call over the thread state: entered from every unscoped buffer at `W1`, left at `W2`. Its arrays
    are split out of the unscoped buffers and put back at the exit contents; the generator register goes into the call's
    invariant and out; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ent0 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (Ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (Ent0 m ρ c) (Ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node layer's call over the thread state: entered from every unscoped buffer at `W3`, left at `W4`. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ent1 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (Ent1 m ρ c) (Ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) padm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has every unscoped buffer at the last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) padm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c)
          ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      (h c _ (mem_uc main_arg0 (by decide))).trans (W6_kept m ρ c main_arg0 (by decide) (by decide) (by decide) (by decide) (by decide) (by decide)),
      (h c _ (mem_uc main_arg1 (by decide))).trans (W6_kept m ρ c main_arg1 (by decide) (by decide) (by decide) (by decide) (by decide) (by decide)),
      (h c _ (mem_uc main_arg2 (by decide))).trans (W6_kept m ρ c main_arg2 (by decide) (by decide) (by decide) (by decide) (by decide) (by decide)),
      (h c _ (mem_uc main_arg3 (by decide))).trans (W6_kept m ρ c main_arg3 (by decide) (by decide) (by decide) (by decide) (by decide) (by decide)),
      (h c _ (mem_uc main_arg4 (by decide))).trans (W6_kept m ρ c main_arg4 (by decide) (by decide) (by decide) (by decide) (by decide) (by decide)),
      (h c _ (mem_uc main_arg5 (by decide))).trans (W6_kept m ρ c main_arg5 (by decide) (by decide) (by decide) (by decide) (by decide) (by decide)),
      (h c _ (mem_uc main_arg6 (by decide))).trans (W6_kept m ρ c main_arg6 (by decide) (by decide) (by decide) (by decide) (by decide) (by decide)),
      (h c _ (mem_uc main_arg7 (by decide))).trans (W6_kept m ρ c main_arg7 (by decide) (by decide) (by decide) (by decide) (by decide) (by decide)),
      (h c _ (mem_uc main_arg8 (by decide))).trans (W6_kept m ρ c main_arg8 (by decide) (by decide) (by decide) (by decide) (by decide) (by decide)),
      (h c _ (mem_uc main_arg9 (by decide))).trans (W6_kept m ρ c main_arg9 (by decide) (by decide) (by decide) (by decide) (by decide) (by decide)),
      (h c _ (mem_uc main_arg10 (by decide))).trans (W6_kept m ρ c main_arg10 (by decide) (by decide) (by decide) (by decide) (by decide) (by decide)),
      (h c _ (mem_uc main_arg11 (by decide))).trans (W6_kept m ρ c main_arg11 (by decide) (by decide) (by decide) (by decide) (by decide) (by decide)),
      (h c _ (mem_uc main_arg12 (by decide))).trans (W6_kept m ρ c main_arg12 (by decide) (by decide) (by decide) (by decide) (by decide) (by decide)),
      (h c _ (mem_uc main_arg13 (by decide))).trans (W6_kept m ρ c main_arg13 (by decide) (by decide) (by decide) (by decide) (by decide) (by decide))⟩)
    (run_all m ρ)

end Cert.KernelIdeal.Hand

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Rows.lean ====
/-
  The two networks of the message-passing layer at ONE ROW, over the extended reals, and the whole arrays they make.

  An affine layer takes a row x (K entries), a K × 64 matrix w and a bias row b to  x · w + b : entry k is
  ∑ j < K, x j · w j k  plus  b k. The edge network is two such layers, each followed by the maximum with zero; the node
  layer is one, with no maximum. Both are applied to every row of an array independently, so a call that works through
  the array a block of rows at a time and a host program that works on the whole array at once compute the same array:
  `edgeMlp` and `nodeLin` below are what both sides are shown to produce.
-/
import Idealize.ShloMosaic.PureOps.Ideal.Laws
import Idealize.ShloMosaic.Lib.ValueIdx

noncomputable section

open scoped BigOperators

namespace Cert.Rows

open Idealize.ShloMosaic Idealize.ShloMosaic.ValueIdx

/-- The zero both programs take the maximum with: the value of the all-zero float pattern. -/
abbrev zero : EReal := Ideal.ofBits .f32 0x00000000#32

/-- One entry of an affine layer: the row times one column of the matrix, plus that column's bias. -/
def affine {K : Nat} (x : Fin K → EReal) (w : Fin K → EReal) (b : EReal) : EReal := (∑ j : Fin K, x j * w j) + b

/-- The maximum with zero. -/
def relu (y : EReal) : EReal := max y zero

/-- The edge network at one row `x` of 192 entries: entry `q` of  relu (relu (x · w1 + b1) · w2 + b2). -/
def mlpRow (x : Fin 192 → EReal) (w1 : Fin 192 → Fin 64 → EReal) (b1 : Fin 64 → EReal) (w2 : Fin 64 → Fin 64 → EReal)
    (b2 : Fin 64 → EReal) (q : Fin 64) : EReal :=
  relu (affine (fun k => relu (affine x (fun j => w1 j k) (b1 k))) (fun k => w2 k q) (b2 q))

/-- The node layer at one row `x` of 64 entries: entry `q` of  x · wn + bn. -/
def linRow (x : Fin 64 → EReal) (wn : Fin 64 → Fin 64 → EReal) (bn : Fin 64 → EReal) (q : Fin 64) : EReal :=
  affine x (fun j => wn j q) (bn q)

/-- The edge network on every row of an array of `n` rows. -/
def edgeMlp {n : Nat} (x : (⟨2, ![n, 192]⟩ : Shape).Idx → EReal) (w1 : (⟨2, ![192, 64]⟩ : Shape).Idx → EReal) (b1 : Fin 64 → EReal)
    (w2 : (⟨2, ![64, 64]⟩ : Shape).Idx → EReal) (b2 : Fin 64 → EReal) : (⟨2, ![n, 64]⟩ : Shape).Idx → EReal :=
  fun i => mlpRow (fun j => x (ix2 (i 0) j)) (fun j k => w1 (ix2 j k)) b1 (fun k q => w2 (ix2 k q)) b2 (i 1)

/-- The node layer on every row of an array of `n` rows. -/
def nodeLin {n : Nat} (x : (⟨2, ![n, 64]⟩ : Shape).Idx → EReal) (wn : (⟨2, ![64, 64]⟩ : Shape).Idx → EReal) (bn : Fin 64 → EReal) :
    (⟨2, ![n, 64]⟩ : Shape).Idx → EReal :=
  fun i => linRow (fun j => x (ix2 (i 0) j)) (fun j k => wn (ix2 j k)) bn (i 1)

end Cert.Rows

end
-- ==== Proof.KPay.lean ====
/-
  The two kernel bodies' stored values at one entry, at the ideal values: the edge network's and the node layer's row
  functions of the loaded blocks' rows. A change of float format is the identity there, and a matrix product into a zero
  accumulator is the entry's plain sum over the shared axis.
-/
import proofs.«135959_j29403346108688_1_alg».proof.Proof.Gen.KernelIdeal.Skeleton
import proofs.«135959_j29403346108688_1_alg».proof.Proof.LibDotRowsCols
import proofs.«135959_j29403346108688_1_alg».proof.Proof.Rows
import Idealize.ShloMosaic.Lib.Pipeline.Value
import Idealize.ShloMosaic.Lib.ValueLayout

noncomputable section

open scoped BigOperators

namespace Cert.KernelIdeal.Pay

open Cert.KernelIdeal Cert.KernelIdeal.Gen
open Idealize.ShloMosaic Idealize.ShloMosaic.ValueIdx

/-- A [1, 64] row, cast to its own shape and broadcast down n rows, read at (p, q), is the row's entry q. -/
private theorem biasRow_apply {n : Nat} (b : FVec Ideal ⟨2, ![1, 64]⟩ .f32)
    (hc : (⟨2, ![1, 64]⟩ : Shape).ShapeCasts ⟨2, ![1, 64]⟩)
    (hb : (⟨2, ![1, 64]⟩ : Shape).Broadcasts ⟨2, ![n, 64]⟩) (p : Fin n) (q : Fin 64) :
    broadcastTo ⟨2, ![n, 64]⟩ (shapeCast ⟨2, ![1, 64]⟩ b hc) hb (ix2 p q) = b (ix2 (0 : Fin 1) q) := by
  rw [shapeCast_self]
  refine broadcastTo_apply b hb (ix2 p q) (ix2 (0 : Fin 1) q) ?_
  intro a
  match a with
  | ⟨0, _⟩ => rfl
  | ⟨1, _⟩ => rfl

/-- One dense layer at an entry: the product of a block of rows (already in the narrow format) with the narrowed
    weights, accumulated into zero, plus the broadcast bias row, is the affine form of the block's row p with the
    weights' column q and the bias entry q. -/
private theorem layer_apply {n K : Nat} {d : DotDims ⟨2, ![n, K]⟩ ⟨2, ![K, 64]⟩ ⟨2, ![n, 64]⟩}
    (hd : Cert.Lib.DotRowsCols.RowsCols d)
    (l : FVec Ideal ⟨2, ![n, K]⟩ .bf16) (w : FVec Ideal ⟨2, ![K, 64]⟩ .f32) (b : FVec Ideal ⟨2, ![1, 64]⟩ .f32)
    (hw : FTy.bits .bf16 < FTy.bits .f32)
    (hc : (⟨2, ![1, 64]⟩ : Shape).ShapeCasts ⟨2, ![1, 64]⟩)
    (hb : (⟨2, ![1, 64]⟩ : Shape).Broadcasts ⟨2, ![n, 64]⟩) (p : Fin n) (q : Fin 64) :
    addf (matmul (F := Ideal) d none l (truncf .bf16 w hw) (constant ⟨2, ![n, 64]⟩ .f32 0x00000000#32))
        (broadcastTo ⟨2, ![n, 64]⟩ (shapeCast ⟨2, ![1, 64]⟩ b hc) hb) (ix2 p q)
      = Rows.affine (fun j => l (ix2 p j)) (fun j => w (ix2 j q)) (b (ix2 (0 : Fin 1) q)) := by
  rw [addf_apply, hd.matmul_zero_apply, biasRow_apply]
  rfl

/-- The same layer followed by the maximum with the zero constant. -/
private theorem reluLayer_apply {n K : Nat} {d : DotDims ⟨2, ![n, K]⟩ ⟨2, ![K, 64]⟩ ⟨2, ![n, 64]⟩}
    (hd : Cert.Lib.DotRowsCols.RowsCols d)
    (l : FVec Ideal ⟨2, ![n, K]⟩ .bf16) (w : FVec Ideal ⟨2, ![K, 64]⟩ .f32) (b : FVec Ideal ⟨2, ![1, 64]⟩ .f32)
    (hw : FTy.bits .bf16 < FTy.bits .f32)
    (hc : (⟨2, ![1, 64]⟩ : Shape).ShapeCasts ⟨2, ![1, 64]⟩)
    (hb : (⟨2, ![1, 64]⟩ : Shape).Broadcasts ⟨2, ![n, 64]⟩) (p : Fin n) (q : Fin 64) :
    maximumf (addf (matmul (F := Ideal) d none l (truncf .bf16 w hw) (constant ⟨2, ![n, 64]⟩ .f32 0x00000000#32))
        (broadcastTo ⟨2, ![n, 64]⟩ (shapeCast ⟨2, ![1, 64]⟩ b hc) hb))
        (broadcast ⟨2, ![n, 64]⟩ (Scalar.ofBits (F := Ideal) .f32 0x00000000#32)) (ix2 p q)
      = Rows.relu (Rows.affine (fun j => l (ix2 p j)) (fun j => w (ix2 j q)) (b (ix2 (0 : Fin 1) q))) := by
  rw [maximumf_apply, layer_apply hd, broadcast_apply]
  rfl

/-- The edge kernel's stored value at row `p`, column `q` of its block. -/
theorem pay0_apply (v0 : Vec Ideal S8000x192 .f32) (v3 : Vec Ideal S192x64 .f32) (v6 : Vec Ideal S1x64 .f32)
    (v13 : Vec Ideal S64x64 .f32) (v16 : Vec Ideal S1x64 .f32) (p : Fin 8000) (q : Fin 64) :
    k0_pay1 (F := Ideal) v0 v3 v6 v13 v16 (ix2 p q)
      = Rows.mlpRow (fun j => v0 (ix2 p j)) (fun j k => v3 (ix2 j k)) (fun k => v6 (ix2 (0 : Fin 1) k))
          (fun k q' => v13 (ix2 k q')) (fun q' => v16 (ix2 (0 : Fin 1) q')) q := by
  unfold k0_pay1
  -- the second layer at (p, q), over the first layer's output block
  refine (reluLayer_apply ⟨rfl, rfl, rfl, rfl, rfl, rfl⟩ _ v13 v16 _ _ _ p q).trans ?_
  unfold Rows.mlpRow Rows.affine
  refine congrArg Rows.relu (congrArg (· + _) (Finset.sum_congr rfl fun k _ => congrArg (· * _) ?_))
  -- the first layer at (p, k)
  refine (reluLayer_apply ⟨rfl, rfl, rfl, rfl, rfl, rfl⟩ _ v3 v6 _ _ _ p k).trans ?_
  rw [shapeCast_self]
  rfl

/-- The node kernel's stored value at row `p`, column `q` of its block. -/
theorem pay1_apply (v0 : Vec Ideal S12800x64 .f32) (v3 : Vec Ideal S64x64 .f32) (v6 : Vec Ideal S1x64 .f32)
    (p : Fin 12800) (q : Fin 64) :
    k1_pay1 (F := Ideal) v0 v3 v6 (ix2 p q)
      = Rows.linRow (fun j => v0 (ix2 p j)) (fun j k => v3 (ix2 j k)) (fun k => v6 (ix2 (0 : Fin 1) k)) q := by
  unfold k1_pay1
  refine (layer_apply ⟨rfl, rfl, rfl, rfl, rfl, rfl⟩ _ v3 v6 _ _ _ p q).trans ?_
  rw [shapeCast_self]
  rfl

end Cert.KernelIdeal.Pay

end
-- ==== Proof.KernelIdeal.Value0.lean ====
/-
  What the edge network's call leaves in its result array: the hundred blocks of 8000 rows it writes back tile the
  800000 rows, and block t is the edge network applied to rows 8000 t … 8000 t + 7999 of the inputs, so the whole array
  is the edge network applied to every row.
-/
import proofs.«135959_j29403346108688_1_alg».proof.Proof.KernelIdeal.Region0
import proofs.«135959_j29403346108688_1_alg».proof.Proof.KPay
import proofs.«135959_j29403346108688_1_alg».proof.Proof.Rows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The two zero offsets of a whole-buffer access, as a constant function. -/
theorem zeros2_0 : (![0, 0] : Fin 2 → Nat) = fun _ => 0 := funext fun a => by fin_cases a <;> rfl

/-- The block index of each window at each of the hundred points: the edge inputs and the result move one block of rows
    per point, the weights and the bias rows stay at their one block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The call runs at a hundred points. -/
theorem point_lt0 (t : Fin cfg0.N) : t.val < 100 := Nat.lt_of_lt_of_eq t.isLt N_0

/-- Row `p` of the edge inputs' block at point `t` is row `8000 t + p` of the array. -/
theorem edgeRows0 (c : Dev nD) (t : Fin cfg0.N) (p : Fin 8000) (j : Fin 192) (r : Fin 800000) (hr : r.val = t.val * 8000 + p.val) :
    (iblk0 V c 0 t : S8000x192.Idx → EReal) (ix2 p j) = (V c main_v14 : S800000x192.Idx → EReal) (ix2 r j) := by
  unfold iblk0
  rw [View.read_apply]
  show V c main_v14 _ = V c main_v14 _
  congr 1
  funext a
  apply Fin.ext
  match a with
  | ⟨0, _⟩ => show win0_0.index t (0 : Fin 2) * 8000 + 1 * p.val = r.val; rw [(blockIdx0 t).1, hr]; omega
  | ⟨1, _⟩ => show win0_0.index t (1 : Fin 2) * 192 + 1 * j.val = j.val; rw [(blockIdx0 t).2.1]; omega

/-- The first weight matrix's block at any point is the whole matrix. -/
theorem weights1_0 (c : Dev nD) (t : Fin cfg0.N) (j : Fin 192) (k : Fin 64) :
    (iblk0 V c 1 t : S192x64.Idx → EReal) (ix2 j k) = (V c main_arg3 : S192x64.Idx → EReal) (ix2 j k) := by
  unfold iblk0
  rw [View.read_apply]
  show V c main_arg3 _ = V c main_arg3 _
  congr 1
  funext a
  apply Fin.ext
  match a with
  | ⟨0, _⟩ => show win0_1.index t (0 : Fin 2) * 192 + 1 * j.val = j.val; rw [(blockIdx0 t).2.2.1]; omega
  | ⟨1, _⟩ => show win0_1.index t (1 : Fin 2) * 64 + 1 * k.val = k.val; rw [(blockIdx0 t).2.2.2.1]; omega

/-- The first bias row's block at any point is the whole row. -/
theorem bias1_0 (c : Dev nD) (t : Fin cfg0.N) (z : Fin 1) (k : Fin 64) :
    (iblk0 V c 2 t : S1x64.Idx → EReal) (ix2 z k) = (V c main_v15 : S1x64.Idx → EReal) (ix2 z k) := by
  unfold iblk0
  rw [View.read_apply]
  show V c main_v15 _ = V c main_v15 _
  congr 1
  funext a
  apply Fin.ext
  match a with
  | ⟨0, _⟩ => show win0_2.index t (0 : Fin 2) * 1 + 1 * z.val = z.val; rw [(blockIdx0 t).2.2.2.2.1]; omega
  | ⟨1, _⟩ => show win0_2.index t (1 : Fin 2) * 64 + 1 * k.val = k.val; rw [(blockIdx0 t).2.2.2.2.2.1]; omega

/-- The second weight matrix's block at any point is the whole matrix. -/
theorem weights2_0 (c : Dev nD) (t : Fin cfg0.N) (k : Fin 64) (q : Fin 64) :
    (iblk0 V c 3 t : S64x64.Idx → EReal) (ix2 k q) = (V c main_arg5 : S64x64.Idx → EReal) (ix2 k q) := by
  unfold iblk0
  rw [View.read_apply]
  show V c main_arg5 _ = V c main_arg5 _
  congr 1
  funext a
  apply Fin.ext
  match a with
  | ⟨0, _⟩ => show win0_3.index t (0 : Fin 2) * 64 + 1 * k.val = k.val; rw [(blockIdx0 t).2.2.2.2.2.2.1]; omega
  | ⟨1, _⟩ => show win0_3.index t (1 : Fin 2) * 64 + 1 * q.val = q.val; rw [(blockIdx0 t).2.2.2.2.2.2.2.1]; omega

/-- The second bias row's block at any point is the whole row. -/
theorem bias2_0 (c : Dev nD) (t : Fin cfg0.N) (z : Fin 1) (k : Fin 64) :
    (iblk0 V c 4 t : S1x64.Idx → EReal) (ix2 z k) = (V c main_v16 : S1x64.Idx → EReal) (ix2 z k) := by
  unfold iblk0
  rw [View.read_apply]
  show V c main_v16 _ = V c main_v16 _
  congr 1
  funext a
  apply Fin.ext
  match a with
  | ⟨0, _⟩ => show win0_4.index t (0 : Fin 2) * 1 + 1 * z.val = z.val; rw [(blockIdx0 t).2.2.2.2.2.2.2.2.1]; omega
  | ⟨1, _⟩ => show win0_4.index t (1 : Fin 2) * 64 + 1 * k.val = k.val; rw [(blockIdx0 t).2.2.2.2.2.2.2.2.2.1]; omega

/-- The edge network on a row depends only on the entries it reads. -/
theorem mlpRow_ext0 (x x' : Fin 192 → EReal) (w1 w1' : Fin 192 → Fin 64 → EReal) (b1 b1' : Fin 64 → EReal)
    (w2 w2' : Fin 64 → Fin 64 → EReal) (b2 b2' : Fin 64 → EReal) (q : Fin 64)
    (hx : ∀ j, x j = x' j) (hw1 : ∀ j k, w1 j k = w1' j k) (hb1 : ∀ k, b1 k = b1' k)
    (hw2 : ∀ k q, w2 k q = w2' k q) (hb2 : ∀ q, b2 q = b2' q) :
    Rows.mlpRow x w1 b1 w2 b2 q = Rows.mlpRow x' w1' b1' w2' b2' q := by
  obtain rfl : x = x' := funext hx
  obtain rfl : w1 = w1' := funext fun j => funext (hw1 j)
  obtain rfl : b1 = b1' := funext hb1
  obtain rfl : w2 = w2' := funext fun k => funext (hw2 k)
  obtain rfl : b2 = b2' := funext hb2
  rfl

/-- The whole result array: the edge network on every row. -/
abbrev edgeOut (c : Dev nD) : S800000x64.Idx → EReal :=
  Rows.edgeMlp (n := 800000) (V c main_v14) (V c main_arg3) (fun k => (V c main_v15 : S1x64.Idx → EReal) (ix2 (0 : Fin 1) k))
          (V c main_arg5) (fun k => (V c main_v16 : S1x64.Idx → EReal) (ix2 (0 : Fin 1) k))

/-- What point `t` writes back is block `t` of the whole result array. -/
theorem flushedBlock0 (c : Dev nD) (t : Fin cfg0.N) :
    (dat0 (F := Ideal) V c).flushed 5 t = ((cfg0.win 5).blk t).view.read (Elt Ideal) (edgeOut V c) := by
  show (cfg0.win 5).cut (grid0.coords t) ((dat0 V c).after 5 t) = _
  rw [after0_5]
  unfold out0_5
  rw [View.canon_unit_zero zeros2_0]
  simp only [View.ld_unit_zero (S := S8000x192) zeros2_0, View.ld_unit_zero (S := S192x64) zeros2_0,
    View.ld_unit_zero (S := S1x64) zeros2_0, View.ld_unit_zero (S := S64x64) zeros2_0]
  funext j
  obtain ⟨p, q, rfl⟩ : ∃ (p : Fin 8000) (q : Fin 64), j = ix2 p q := ⟨j 0, j 1, eq_ix2 j⟩
  obtain ⟨r, hr⟩ : ∃ r : Fin 800000, r.val = t.val * 8000 + p.val :=
    ⟨⟨t.val * 8000 + p.val, by have ht := point_lt0 t; have hp := p.isLt; omega⟩, rfl⟩
  have hrow : ((cfg0.win 5).blk t).view.emb (ix2 p q) = (ix2 r q : S800000x64.Idx) := by
    funext a
    apply Fin.ext
    match a with
    | ⟨0, _⟩ => show win0_5.index t (0 : Fin 2) * 8000 + 1 * p.val = r.val; rw [(blockIdx0 t).2.2.2.2.2.2.2.2.2.2.1, hr]; omega
    | ⟨1, _⟩ => show win0_5.index t (1 : Fin 2) * 64 + 1 * q.val = q.val; rw [(blockIdx0 t).2.2.2.2.2.2.2.2.2.2.2]; omega
  rw [View.read_apply, hrow]
  show k0_pay1 (F := Ideal) (iblk0 V c 0 t) (iblk0 V c 1 t) (iblk0 V c 2 t) (iblk0 V c 3 t) (iblk0 V c 4 t) (ix2 p q)
    = edgeOut V c (ix2 r q)
  refine (Pay.pay0_apply (iblk0 V c 0 t) (iblk0 V c 1 t) (iblk0 V c 2 t) (iblk0 V c 3 t) (iblk0 V c 4 t) p q).trans ?_
  show _ = Rows.mlpRow (fun j => (V c main_v14 : S800000x192.Idx → EReal) (ix2 r j))
      (fun j k => (V c main_arg3 : S192x64.Idx → EReal) (ix2 j k)) (fun k => (V c main_v15 : S1x64.Idx → EReal) (ix2 (0 : Fin 1) k))
      (fun k q' => (V c main_arg5 : S64x64.Idx → EReal) (ix2 k q')) (fun q' => (V c main_v16 : S1x64.Idx → EReal) (ix2 (0 : Fin 1) q')) q
  exact mlpRow_ext0 _ _ _ _ _ _ _ _ _ _ q (fun j => edgeRows0 V c t p j r hr) (fun j k => weights1_0 V c t j k)
    (fun k => bias1_0 V c t 0 k) (fun k q' => weights2_0 V c t k q') (fun q' => bias2_0 V c t 0 q')

/-- An index of the result array is in point `t`'s block iff each coordinate is in the block's range on its axis. -/
theorem mem_resultBlock0 (t : Fin cfg0.N) (i : S800000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v17).slice (win0_5.rect t)).set ↔ _
  rw [View.set_slice_whole, Rect.mem_set_unit]
  exact Iff.rfl

/-- Row `r` of the result lies in the block of point `r / 8000`: the hundred blocks tile the 800000 rows. -/
theorem covered0 (i : S800000x64.Idx) :
    ∃ t : Fin cfg0.N, (cfg0.win 5).flush t = true ∧ i ∈ ((cfg0.win 5).blk t).view.set := by
  have hi0 : (i 0).val < 800000 := (i 0).isLt
  have hi1 : (i 1).val < 64 := (i 1).isLt
  obtain ⟨t, ht⟩ : ∃ t : Fin cfg0.N, t.val = (i 0).val / 8000 :=
    ⟨⟨(i 0).val / 8000, Nat.lt_of_lt_of_eq (by omega : (i 0).val / 8000 < 100) N_0.symm⟩, rfl⟩
  refine ⟨t, flush0_5 t, ?_⟩
  rw [mem_resultBlock0]
  have e0 : win0_5.index t (0 : Fin 2) = t.val := (blockIdx0 t).2.2.2.2.2.2.2.2.2.2.1
  have e1 : win0_5.index t (1 : Fin 2) = 0 := (blockIdx0 t).2.2.2.2.2.2.2.2.2.2.2
  intro a
  match a with
  | ⟨0, _⟩ =>
    show win0_5.index t (0 : Fin 2) * 8000 ≤ (i 0).val ∧ (i 0).val < win0_5.index t (0 : Fin 2) * 8000 + 8000
    rw [e0, ht]; omega
  | ⟨1, _⟩ =>
    show win0_5.index t (1 : Fin 2) * 64 ≤ (i 1).val ∧ (i 1).val < win0_5.index t (1 : Fin 2) * 64 + 64
    rw [e1]; omega

/-- The result array after the call's last write-back: the edge network on every row of the edge inputs, with the weights
    and bias rows as the call finds them (the bias rows are [1, 64] arrays, read at their one row). -/
theorem final0 (c : Dev nD) :
    (dat0 (F := Ideal) V c).arrAt 5 cfg0.N
      = Rows.edgeMlp (n := 800000) (V c main_v14) (V c main_arg3) (fun k => (V c main_v15 : S1x64.Idx → EReal) (ix2 (0 : Fin 1) k))
          (V c main_arg5) (fun k => (V c main_v16 : S1x64.Idx → EReal) (ix2 (0 : Fin 1) k)) :=
  (dat0 (F := Ideal) V c).arrAt_eq_of_cover 5 (edgeOut V c) (fun t _ => flushedBlock0 V c t) covered0

end Cert.KernelIdeal.Hand

end
-- ==== Proof.KernelIdeal.Value1.lean ====
/-
  What the node layer's call leaves in its result array: the four blocks of 12800 rows it writes back tile the 51200
  rows, and block t is the node layer applied to rows 12800 t … 12800 t + 12799 of the aggregated messages, so the whole
  array is the node layer applied to every row.
-/
import proofs.«135959_j29403346108688_1_alg».proof.Proof.KernelIdeal.Region1
import proofs.«135959_j29403346108688_1_alg».proof.Proof.KPay
import proofs.«135959_j29403346108688_1_alg».proof.Proof.Rows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The two zero offsets of a whole-buffer access, as a constant function. -/
theorem zeros2_1 : (![0, 0] : Fin 2 → Nat) = fun _ => 0 := funext fun a => by fin_cases a <;> rfl

/-- The block index of each window at each of the four points: the aggregated messages and the result move one block of
    rows per point, the weights and the bias row stay at their one block. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The call runs at four points. -/
theorem point_lt1 (t : Fin cfg1.N) : t.val < 4 := Nat.lt_of_lt_of_eq t.isLt N_1

/-- Row `p` of the aggregated messages' block at point `t` is row `12800 t + p` of the array. -/
theorem nodeRows1 (c : Dev nD) (t : Fin cfg1.N) (p : Fin 12800) (j : Fin 64) (r : Fin 51200) (hr : r.val = t.val * 12800 + p.val) :
    (iblk1 V c 0 t : S12800x64.Idx → EReal) (ix2 p j) = (V c main_v20 : S51200x64.Idx → EReal) (ix2 r j) := by
  unfold iblk1
  rw [View.read_apply]
  show V c main_v20 _ = V c main_v20 _
  congr 1
  funext a
  apply Fin.ext
  match a with
  | ⟨0, _⟩ => show win1_0.index t (0 : Fin 2) * 12800 + 1 * p.val = r.val; rw [(blockIdx1 t).1, hr]; omega
  | ⟨1, _⟩ => show win1_0.index t (1 : Fin 2) * 64 + 1 * j.val = j.val; rw [(blockIdx1 t).2.1]; omega

/-- The weight matrix's block at any point is the whole matrix. -/
theorem weightsN_1 (c : Dev nD) (t : Fin cfg1.N) (j : Fin 64) (k : Fin 64) :
    (iblk1 V c 1 t : S64x64.Idx → EReal) (ix2 j k) = (V c main_arg7 : S64x64.Idx → EReal) (ix2 j k) := by
  unfold iblk1
  rw [View.read_apply]
  show V c main_arg7 _ = V c main_arg7 _
  congr 1
  funext a
  apply Fin.ext
  match a with
  | ⟨0, _⟩ => show win1_1.index t (0 : Fin 2) * 64 + 1 * j.val = j.val; rw [(blockIdx1 t).2.2.1]; omega
  | ⟨1, _⟩ => show win1_1.index t (1 : Fin 2) * 64 + 1 * k.val = k.val; rw [(blockIdx1 t).2.2.2.1]; omega

/-- The bias row's block at any point is the whole row. -/
theorem biasN_1 (c : Dev nD) (t : Fin cfg1.N) (z : Fin 1) (k : Fin 64) :
    (iblk1 V c 2 t : S1x64.Idx → EReal) (ix2 z k) = (V c main_v21 : S1x64.Idx → EReal) (ix2 z k) := by
  unfold iblk1
  rw [View.read_apply]
  show V c main_v21 _ = V c main_v21 _
  congr 1
  funext a
  apply Fin.ext
  match a with
  | ⟨0, _⟩ => show win1_2.index t (0 : Fin 2) * 1 + 1 * z.val = z.val; rw [(blockIdx1 t).2.2.2.2.1]; omega
  | ⟨1, _⟩ => show win1_2.index t (1 : Fin 2) * 64 + 1 * k.val = k.val; rw [(blockIdx1 t).2.2.2.2.2.1]; omega

/-- The node layer on a row depends only on the entries it reads. -/
theorem linRow_ext1 (x x' : Fin 64 → EReal) (wn wn' : Fin 64 → Fin 64 → EReal) (bn bn' : Fin 64 → EReal) (q : Fin 64)
    (hx : ∀ j, x j = x' j) (hw : ∀ j k, wn j k = wn' j k) (hb : ∀ k, bn k = bn' k) :
    Rows.linRow x wn bn q = Rows.linRow x' wn' bn' q := by
  obtain rfl : x = x' := funext hx
  obtain rfl : wn = wn' := funext fun j => funext (hw j)
  obtain rfl : bn = bn' := funext hb
  rfl

/-- The whole result array: the node layer on every row. -/
abbrev nodeOut (c : Dev nD) : S51200x64.Idx → EReal :=
  Rows.nodeLin (n := 51200) (V c main_v20) (V c main_arg7) (fun k => (V c main_v21 : S1x64.Idx → EReal) (ix2 (0 : Fin 1) k))

/-- What point `t` writes back is block `t` of the whole result array. -/
theorem flushedBlock1 (c : Dev nD) (t : Fin cfg1.N) :
    (dat1 (F := Ideal) V c).flushed 3 t = ((cfg1.win 3).blk t).view.read (Elt Ideal) (nodeOut V c) := by
  show (cfg1.win 3).cut (grid1.coords t) ((dat1 V c).after 3 t) = _
  rw [after1_3]
  unfold out1_3
  rw [View.canon_unit_zero zeros2_1]
  simp only [View.ld_unit_zero (S := S12800x64) zeros2_1, View.ld_unit_zero (S := S64x64) zeros2_1,
    View.ld_unit_zero (S := S1x64) zeros2_1]
  funext j
  obtain ⟨p, q, rfl⟩ : ∃ (p : Fin 12800) (q : Fin 64), j = ix2 p q := ⟨j 0, j 1, eq_ix2 j⟩
  obtain ⟨r, hr⟩ : ∃ r : Fin 51200, r.val = t.val * 12800 + p.val :=
    ⟨⟨t.val * 12800 + p.val, by have ht := point_lt1 t; have hp := p.isLt; omega⟩, rfl⟩
  have hrow : ((cfg1.win 3).blk t).view.emb (ix2 p q) = (ix2 r q : S51200x64.Idx) := by
    funext a
    apply Fin.ext
    match a with
    | ⟨0, _⟩ => show win1_3.index t (0 : Fin 2) * 12800 + 1 * p.val = r.val; rw [(blockIdx1 t).2.2.2.2.2.2.1, hr]; omega
    | ⟨1, _⟩ => show win1_3.index t (1 : Fin 2) * 64 + 1 * q.val = q.val; rw [(blockIdx1 t).2.2.2.2.2.2.2]; omega
  rw [View.read_apply, hrow]
  show k1_pay1 (F := Ideal) (iblk1 V c 0 t) (iblk1 V c 1 t) (iblk1 V c 2 t) (ix2 p q) = nodeOut V c (ix2 r q)
  refine (Pay.pay1_apply (iblk1 V c 0 t) (iblk1 V c 1 t) (iblk1 V c 2 t) p q).trans ?_
  show _ = Rows.linRow (fun j => (V c main_v20 : S51200x64.Idx → EReal) (ix2 r j))
      (fun j k => (V c main_arg7 : S64x64.Idx → EReal) (ix2 j k)) (fun k => (V c main_v21 : S1x64.Idx → EReal) (ix2 (0 : Fin 1) k)) q
  exact linRow_ext1 _ _ _ _ _ _ q (fun j => nodeRows1 V c t p j r hr) (fun j k => weightsN_1 V c t j k)
    (fun k => biasN_1 V c t 0 k)

/-- An index of the result array is in point `t`'s block iff each coordinate is in the block's range on its axis. -/
theorem mem_resultBlock1 (t : Fin cfg1.N) (i : S51200x64.Idx) :
    i ∈ ((cfg1.win 3).blk t).view.set ↔ ∀ a : Fin 2, win1_3.index t a * S12800x64.size a ≤ (i a).val ∧ (i a).val < win1_3.index t a * S12800x64.size a + S12800x64.size a := by
  show i ∈ ((View.whole main_v22).slice (win1_3.rect t)).set ↔ _
  rw [View.set_slice_whole, Rect.mem_set_unit]
  exact Iff.rfl

/-- Row `r` of the result lies in the block of point `r / 12800`: the four blocks tile the 51200 rows. -/
theorem covered1 (i : S51200x64.Idx) :
    ∃ t : Fin cfg1.N, (cfg1.win 3).flush t = true ∧ i ∈ ((cfg1.win 3).blk t).view.set := by
  have hi0 : (i 0).val < 51200 := (i 0).isLt
  have hi1 : (i 1).val < 64 := (i 1).isLt
  obtain ⟨t, ht⟩ : ∃ t : Fin cfg1.N, t.val = (i 0).val / 12800 :=
    ⟨⟨(i 0).val / 12800, Nat.lt_of_lt_of_eq (by omega : (i 0).val / 12800 < 4) N_1.symm⟩, rfl⟩
  refine ⟨t, flush1_3 t, ?_⟩
  rw [mem_resultBlock1]
  have e0 : win1_3.index t (0 : Fin 2) = t.val := (blockIdx1 t).2.2.2.2.2.2.1
  have e1 : win1_3.index t (1 : Fin 2) = 0 := (blockIdx1 t).2.2.2.2.2.2.2
  intro a
  match a with
  | ⟨0, _⟩ =>
    show win1_3.index t (0 : Fin 2) * 12800 ≤ (i 0).val ∧ (i 0).val < win1_3.index t (0 : Fin 2) * 12800 + 12800
    rw [e0, ht]; omega
  | ⟨1, _⟩ =>
    show win1_3.index t (1 : Fin 2) * 64 ≤ (i 1).val ∧ (i 1).val < win1_3.index t (1 : Fin 2) * 64 + 64
    rw [e1]; omega

/-- The result array after the call's last write-back: the node layer on every row of the aggregated messages, with the
    weights and the bias row as the call finds them (the bias row is a [1, 64] array, read at its one row). -/
theorem final1 (c : Dev nD) :
    (dat1 (F := Ideal) V c).arrAt 3 cfg1.N
      = Rows.nodeLin (n := 51200) (V c main_v20) (V c main_arg7) (fun k => (V c main_v21 : S1x64.Idx → EReal) (ix2 (0 : Fin 1) k)) :=
  (dat1 (F := Ideal) V c).arrAt_eq_of_cover 3 (nodeOut V c) (fun t _ => flushedBlock1 V c t) covered1

end Cert.KernelIdeal.Hand

end
-- ==== Proof.Layer.lean ====
/-
  The message-passing layer as one function of its fourteen argument arrays, at the ideal values.

  Four stages are the same host operations in the kernel's program and in the reference: the edge inputs (for every
  edge the feature row of its source node, of its destination node, and its own feature row side by side, a negative node
  number counted from the end), the sum of the messages into their destination nodes, and the closing stage (the sum of
  the nodes into their graphs, side by side with the graphs' own features, a dense layer and the maximum with zero).
  Between them stand the two row-wise networks of Rows.lean. The stages are kept as opaque functions: nothing about
  a gather or a scattered sum is needed, only that both programs apply the same one to equal operands.
-/
import proofs.«135959_j29403346108688_1_alg».proof.KernelIdeal
import proofs.«135959_j29403346108688_1_alg».proof.Proof.Gen.KernelIdeal
import proofs.«135959_j29403346108688_1_alg».proof.Proof.Rows

noncomputable section

namespace Cert.KernelIdeal.Layer

open Cert.KernelIdeal Cert.KernelIdeal.Gen
open Idealize.ShloMosaic Idealize.ShloMosaic.ValueIdx

/-- A column of node numbers made ready for a row gather: a negative number has the node count added. -/
def wrapped (a : (⟨S800000, .i32⟩ : BufTy).Contents (Elt Ideal)) : (⟨S800000x1, .i32⟩ : BufTy).Contents (Elt Ideal) :=
  broadcastInDim S800000x1 ![0] bcast_S800000_S800000x1_0 (select (cmpi .slt a (broadcastInDim S800000 ![] bcast_S_S800000 (constantI S_ 32 0#32))) (addi a (broadcastInDim S800000 ![] bcast_S_S800000 (constantI S_ 32 51200#32))) a)

/-- The edge inputs: source row, destination row and the edge's own row, side by side. -/
def msgIn (a0 : FVec Ideal S51200x64 .f32) (a1 : FVec Ideal S800000x64 .f32)
    (a11 a12 : (⟨S800000, .i32⟩ : BufTy).Contents (Elt Ideal)) : FVec Ideal S800000x192 .f32 :=
  concatenate S800000x192 1 [⟨S800000x64, (Host.gather gather_S51200x64_S800000x1_S800000x64_1_0_n_n_0_1_164 a0 (wrapped a11))⟩, ⟨S800000x64, (Host.gather gather_S51200x64_S800000x1_S800000x64_1_0_n_n_0_1_164 a0 (wrapped a12))⟩, ⟨S800000x64, a1⟩] concatenates_S800000x64_S800000x64_S800000x64_S800000x192_d1

/-- The messages summed into their destination nodes. -/
def aggregate (msg : FVec Ideal S800000x64 .f32) (a12 : (⟨S800000, .i32⟩ : BufTy).Contents (Elt Ideal)) : FVec Ideal S51200x64 .f32 :=
  Host.scatterAdd scatter_S51200x64_S800000x1_S800000x64_1_0_0_1 (broadcastInDim S51200x64 ![] bcast_S_S51200x64 (constant S_ .f32 0x00000000#32)) (broadcastInDim S800000x1 ![0] bcast_S800000_S800000x1_0 a12) msg

/-- The closing stage: nodes summed into graphs, joined with the graphs' features, a dense layer, the maximum with zero. -/
def closing (a2 : FVec Ideal S128x128 .f32) (a9 : FVec Ideal S192x128 .f32) (a10 : FVec Ideal S128 .f32)
    (a13 : (⟨S51200, .i32⟩ : BufTy).Contents (Elt Ideal)) (n : FVec Ideal S51200x64 .f32) : FVec Ideal S128x128 .f32 :=
  maximumf (addf (Host.dotGeneral dot_S128x192_S192x128_S128x128_1_0_0_1_n_n none (concatenate S128x192 1 [⟨S128x128, a2⟩, ⟨S128x64, (Host.scatterAdd scatter_S128x64_S51200x1_S51200x64_1_0_0_1 (broadcastInDim S128x64 ![] bcast_S_S128x64 (constant S_ .f32 0x00000000#32)) (broadcastInDim S51200x1 ![0] bcast_S51200_S51200x1_0 a13) n)⟩] concatenates_S128x128_S128x64_S128x192_d1) a9) (broadcastInDim S128x128 ![0, 1] bcast_S1x128_S128x128_0_1 (broadcastInDim S1x128 ![1] bcast_S128_S1x128_1 a10))) (broadcastInDim S128x128 ![] bcast_S_S128x128 (constant S_ .f32 0x00000000#32))

/-- The whole layer. -/
def layerOut (a0 : FVec Ideal S51200x64 .f32) (a1 : FVec Ideal S800000x64 .f32) (a2 : FVec Ideal S128x128 .f32)
    (a3 : FVec Ideal S192x64 .f32) (a4 : FVec Ideal S64 .f32) (a5 : FVec Ideal S64x64 .f32) (a6 : FVec Ideal S64 .f32)
    (a7 : FVec Ideal S64x64 .f32) (a8 : FVec Ideal S64 .f32) (a9 : FVec Ideal S192x128 .f32) (a10 : FVec Ideal S128 .f32)
    (a11 a12 : (⟨S800000, .i32⟩ : BufTy).Contents (Elt Ideal)) (a13 : (⟨S51200, .i32⟩ : BufTy).Contents (Elt Ideal)) :
    FVec Ideal S128x128 .f32 :=
  closing a2 a9 a10 a13
    (Rows.nodeLin (n := 51200)
      (aggregate (Rows.edgeMlp (n := 800000) (msgIn a0 a1 a11 a12) a3 (fun k => a4 (ix1 k)) a5 (fun k => a6 (ix1 k))) a12)
      a7 (fun k => a8 (ix1 k)))

end Cert.KernelIdeal.Layer

end
-- ==== Proof.KernelIdeal.Result.lean ====
/-
  The idealized kernel program's result buffer after @main, read back item by item: the closing stage of the node
  layer's result array, which is the node layer on every row of the summed messages, which are the sum of the edge
  network's result array, which is the edge network on every row of the edge inputs. Each host stretch is read at an
  arbitrary valuation of the buffers first, so that what the calls leave stays a name while the stretch is read.
-/
import proofs.«135959_j29403346108688_1_alg».proof.Proof.KernelIdeal.Run
import proofs.«135959_j29403346108688_1_alg».proof.Proof.KernelIdeal.Value0
import proofs.«135959_j29403346108688_1_alg».proof.Proof.KernelIdeal.Value1
import proofs.«135959_j29403346108688_1_alg».proof.Proof.Layer
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

/-! ## The host stretches at an arbitrary valuation -/

section Stretches
variable (V : Valuation τ sig (Elt Ideal))

/-- The first stretch builds the edge inputs from the node features, the edge features and the two columns of node numbers. -/
theorem stretch0_inputs : (StableHlo.after hostOps0 V (Proc.devRef .tc main_v14) : FVec Ideal S800000x192 .f32)
    = Layer.msgIn (V (Proc.devRef .tc main_arg0)) (V (Proc.devRef .tc main_arg1)) (V (Proc.devRef .tc main_arg11)) (V (Proc.devRef .tc main_arg12)) := by
  after_results
  rfl

/-- It also lays the first bias out as a one-row array. -/
theorem stretch0_bias1 : (StableHlo.after hostOps0 V (Proc.devRef .tc main_v15) : FVec Ideal S1x64 .f32)
    = shapeCast S1x64 (V (Proc.devRef .tc main_arg4) : FVec Ideal S64 .f32) shapeCasts_S64_S1x64 := by
  after_results
  rfl

/-- And the second. -/
theorem stretch0_bias2 : (StableHlo.after hostOps0 V (Proc.devRef .tc main_v16) : FVec Ideal S1x64 .f32)
    = shapeCast S1x64 (V (Proc.devRef .tc main_arg6) : FVec Ideal S64 .f32) shapeCasts_S64_S1x64 := by
  after_results
  rfl

/-- The second stretch sums the messages into their destination nodes. -/
theorem stretch1_sum : (StableHlo.after hostOps1 V (Proc.devRef .tc main_v20) : FVec Ideal S51200x64 .f32)
    = Layer.aggregate (V (Proc.devRef .tc main_v17)) (V (Proc.devRef .tc main_arg12)) := by
  after_results
  rfl

/-- It also lays the node layer's bias out as a one-row array. -/
theorem stretch1_bias : (StableHlo.after hostOps1 V (Proc.devRef .tc main_v21) : FVec Ideal S1x64 .f32)
    = shapeCast S1x64 (V (Proc.devRef .tc main_arg8) : FVec Ideal S64 .f32) shapeCasts_S64_S1x64 := by
  after_results
  rfl

/-- The third stretch and the closing maximum: the closing stage of the node layer's result. -/
theorem stretch2_closing : (StableHlo.after hostOps2_1 (StableHlo.after hostOps2 V) (Proc.devRef .tc main_v31) : FVec Ideal S128x128 .f32)
    = Layer.closing (V (Proc.devRef .tc main_arg2)) (V (Proc.devRef .tc main_arg9)) (V (Proc.devRef .tc main_arg10))
        (V (Proc.devRef .tc main_arg13)) (V (Proc.devRef .tc main_v22)) := by
  after_results
  rfl

end Stretches

/-! ## A one-row array read at its row is the flat array -/

/-- A 64-entry array laid out as one row, read at column `k` of that row, is its entry `k`. -/
theorem row_of_flat (b : FVec Ideal S64 .f32) (k : Fin 64) :
    (shapeCast S1x64 b shapeCasts_S64_S1x64 : FVec Ideal S1x64 .f32) (ix2 (0 : Fin 1) k) = b (ix1 k) :=
  shapeCast_apply b shapeCasts_S64_S1x64 (ix2 (0 : Fin 1) k) (ix1 k) (by
    simp only [Shape.rowMajor_val_one, Shape.rowMajor_val_two]
    show k.val = 0 * 64 + k.val
    omega)

/-! ## The result buffer -/

variable (m : (ℓ : Loc nD τ sig) → Buf (Elt Ideal) ℓ) (ρ : Dev nD → PrngReg)

/-- A buffer the first stretch does not write is as launched at the edge call's entry. -/
theorem W1_kept (c : Dev nD) (b : Ref sig .tc) (h0 : b ∉ hostOps0_W) :
    W1 m ρ c (Proc.devRef .tc b) = m ((c : Thread nD τ).loc b) :=
  (StableHlo.after_of_writes_sub hostOps0 _ hostOps0_writes h0).trans rfl

/-- A buffer written by neither of the first two stretches nor by the edge call is as launched at the node call's entry. -/
theorem W3_kept (c : Dev nD) (b : Ref sig .tc) (h0 : b ∉ hostOps0_W) (h1 : b ≠ main_v17) (h2 : b ∉ hostOps1_W) :
    W3 m ρ c (Proc.devRef .tc b) = m ((c : Thread nD τ).loc b) :=
  (StableHlo.after_of_writes_sub hostOps1 _ hostOps1_writes h2).trans ((W2_keep m ρ c b h1).trans (W1_kept m ρ c b h0))

/-- A buffer no item before the third stretch writes is as launched at the node call's exit. -/
theorem W4_kept (c : Dev nD) (b : Ref sig .tc) (h0 : b ∉ hostOps0_W) (h1 : b ≠ main_v17) (h2 : b ∉ hostOps1_W) (h3 : b ≠ main_v22) :
    W4 m ρ c (Proc.devRef .tc b) = m ((c : Thread nD τ).loc b) :=
  (W4_keep m ρ c b h3).trans (W3_kept m ρ c b h0 h1 h2)

/-- The edge call's result array: the edge network on every row of the edge inputs. -/
theorem W2_messages (c : Dev nD) :
    (W2 m ρ c (Proc.devRef .tc main_v17) : FVec Ideal S800000x64 .f32)
      = Rows.edgeMlp (n := 800000) (Layer.msgIn (m ((c : Thread nD τ).loc main_arg0)) (m ((c : Thread nD τ).loc main_arg1)) (m ((c : Thread nD τ).loc main_arg11)) (m ((c : Thread nD τ).loc main_arg12)))
          (m ((c : Thread nD τ).loc main_arg3)) (fun k => ((m ((c : Thread nD τ).loc main_arg4)) : FVec Ideal S64 .f32) (ix1 k)) (m ((c : Thread nD τ).loc main_arg5)) (fun k => ((m ((c : Thread nD τ).loc main_arg6)) : FVec Ideal S64 .f32) (ix1 k)) := by
  refine (W2_arr m ρ c 5).trans ((final0 (Ent0 m ρ) c).trans ?_)
  have e14 : (Ent0 m ρ c main_v14 : FVec Ideal S800000x192 .f32) = Layer.msgIn (m ((c : Thread nD τ).loc main_arg0)) (m ((c : Thread nD τ).loc main_arg1)) (m ((c : Thread nD τ).loc main_arg11)) (m ((c : Thread nD τ).loc main_arg12)) :=
    (stretch0_inputs (W0 m ρ c)).trans rfl
  have e3 : (Ent0 m ρ c main_arg3 : FVec Ideal S192x64 .f32) = (m ((c : Thread nD τ).loc main_arg3)) := W1_kept m ρ c main_arg3 (by decide)
  have e5 : (Ent0 m ρ c main_arg5 : FVec Ideal S64x64 .f32) = (m ((c : Thread nD τ).loc main_arg5)) := W1_kept m ρ c main_arg5 (by decide)
  have e15 : (fun k : Fin 64 => (Ent0 m ρ c main_v15 : S1x64.Idx → EReal) (ix2 (0 : Fin 1) k)) = fun k => ((m ((c : Thread nD τ).loc main_arg4)) : FVec Ideal S64 .f32) (ix1 k) :=
    funext fun k => (congrFun (stretch0_bias1 (W0 m ρ c)) (ix2 (0 : Fin 1) k)).trans (row_of_flat _ k)
  have e16 : (fun k : Fin 64 => (Ent0 m ρ c main_v16 : S1x64.Idx → EReal) (ix2 (0 : Fin 1) k)) = fun k => ((m ((c : Thread nD τ).loc main_arg6)) : FVec Ideal S64 .f32) (ix1 k) :=
    funext fun k => (congrFun (stretch0_bias2 (W0 m ρ c)) (ix2 (0 : Fin 1) k)).trans (row_of_flat _ k)
  rw [e14, e3, e5, e15, e16]

/-- The node call's result array: the node layer on every row of the summed messages. -/
theorem W4_nodes (c : Dev nD) :
    (W4 m ρ c (Proc.devRef .tc main_v22) : FVec Ideal S51200x64 .f32)
      = Rows.nodeLin (n := 51200)
          (Layer.aggregate (Rows.edgeMlp (n := 800000) (Layer.msgIn (m ((c : Thread nD τ).loc main_arg0)) (m ((c : Thread nD τ).loc main_arg1)) (m ((c : Thread nD τ).loc main_arg11)) (m ((c : Thread nD τ).loc main_arg12)))
            (m ((c : Thread nD τ).loc main_arg3)) (fun k => ((m ((c : Thread nD τ).loc main_arg4)) : FVec Ideal S64 .f32) (ix1 k)) (m ((c : Thread nD τ).loc main_arg5)) (fun k => ((m ((c : Thread nD τ).loc main_arg6)) : FVec Ideal S64 .f32) (ix1 k))) (m ((c : Thread nD τ).loc main_arg12)))
          (m ((c : Thread nD τ).loc main_arg7)) (fun k => ((m ((c : Thread nD τ).loc main_arg8)) : FVec Ideal S64 .f32) (ix1 k)) := by
  refine (W4_arr m ρ c 3).trans ((final1 (Ent1 m ρ) c).trans ?_)
  have e20 : (Ent1 m ρ c main_v20 : FVec Ideal S51200x64 .f32)
      = Layer.aggregate (Rows.edgeMlp (n := 800000) (Layer.msgIn (m ((c : Thread nD τ).loc main_arg0)) (m ((c : Thread nD τ).loc main_arg1)) (m ((c : Thread nD τ).loc main_arg11)) (m ((c : Thread nD τ).loc main_arg12)))
            (m ((c : Thread nD τ).loc main_arg3)) (fun k => ((m ((c : Thread nD τ).loc main_arg4)) : FVec Ideal S64 .f32) (ix1 k)) (m ((c : Thread nD τ).loc main_arg5)) (fun k => ((m ((c : Thread nD τ).loc main_arg6)) : FVec Ideal S64 .f32) (ix1 k))) (m ((c : Thread nD τ).loc main_arg12)) := by
    refine (stretch1_sum (W2 m ρ c)).trans ?_
    rw [W2_messages m ρ c, (W2_keep m ρ c main_arg12 (by decide)).trans (W1_kept m ρ c main_arg12 (by decide))]
  have e7 : (Ent1 m ρ c main_arg7 : FVec Ideal S64x64 .f32) = (m ((c : Thread nD τ).loc main_arg7)) := W3_kept m ρ c main_arg7 (by decide) (by decide) (by decide)
  have e8 : (W2 m ρ c (Proc.devRef .tc main_arg8) : FVec Ideal S64 .f32) = (m ((c : Thread nD τ).loc main_arg8)) :=
    (W2_keep m ρ c main_arg8 (by decide)).trans (W1_kept m ρ c main_arg8 (by decide))
  have e21 : (fun k : Fin 64 => (Ent1 m ρ c main_v21 : S1x64.Idx → EReal) (ix2 (0 : Fin 1) k)) = fun k => ((m ((c : Thread nD τ).loc main_arg8)) : FVec Ideal S64 .f32) (ix1 k) :=
    funext fun k => (congrFun (stretch1_bias (W2 m ρ c)) (ix2 (0 : Fin 1) k)).trans ((row_of_flat _ k).trans (congrFun e8 (ix1 k)))
  rw [e20, e7, e21]

/-- THE RESULT: the buffer @main returns ends at the layer function of the launch contents of the fourteen arguments. -/
theorem W6_result (c : Dev nD) :
    (W6 m ρ c (Proc.devRef .tc main_v31) : FVec Ideal S128x128 .f32)
      = Layer.layerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (stretch2_closing (W4 m ρ c)).trans ?_
  rw [W4_nodes m ρ c, W4_kept m ρ c main_arg2 (by decide) (by decide) (by decide) (by decide),
    W4_kept m ρ c main_arg9 (by decide) (by decide) (by decide) (by decide),
    W4_kept m ρ c main_arg10 (by decide) (by decide) (by decide) (by decide),
    W4_kept m ρ c main_arg13 (by decide) (by decide) (by decide) (by decide)]
  rfl

/-- THE VALUE RUN: every weakly fair execution of @main terminates with the returned buffer at the layer function of the
    launch contents of the arguments, and the arguments unchanged. -/
theorem run_result : θ_run defs (onTc (τ := τ) (main (F := Ideal))) ⟨m, fun _ => 0, ρ⟩ (fun r => ∀ c : Dev nD,
      r.2.mem ((c.tc : Thread nD τ).loc main_v31) = Layer.layerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      (h c _ (mem_uc main_v31 (by decide))).trans (W6_result m ρ c),
      (h c _ (mem_uc main_arg0 (by decide))).trans (W6_kept m ρ c main_arg0 (by decide) (by decide) (by decide) (by decide) (by decide) (by decide)),
      (h c _ (mem_uc main_arg1 (by decide))).trans (W6_kept m ρ c main_arg1 (by decide) (by decide) (by decide) (by decide) (by decide) (by decide)),
      (h c _ (mem_uc main_arg2 (by decide))).trans (W6_kept m ρ c main_arg2 (by decide) (by decide) (by decide) (by decide) (by decide) (by decide)),
      (h c _ (mem_uc main_arg3 (by decide))).trans (W6_kept m ρ c main_arg3 (by decide) (by decide) (by decide) (by decide) (by decide) (by decide)),
      (h c _ (mem_uc main_arg4 (by decide))).trans (W6_kept m ρ c main_arg4 (by decide) (by decide) (by decide) (by decide) (by decide) (by decide)),
      (h c _ (mem_uc main_arg5 (by decide))).trans (W6_kept m ρ c main_arg5 (by decide) (by decide) (by decide) (by decide) (by decide) (by decide)),
      (h c _ (mem_uc main_arg6 (by decide))).trans (W6_kept m ρ c main_arg6 (by decide) (by decide) (by decide) (by decide) (by decide) (by decide)),
      (h c _ (mem_uc main_arg7 (by decide))).trans (W6_kept m ρ c main_arg7 (by decide) (by decide) (by decide) (by decide) (by decide) (by decide)),
      (h c _ (mem_uc main_arg8 (by decide))).trans (W6_kept m ρ c main_arg8 (by decide) (by decide) (by decide) (by decide) (by decide) (by decide)),
      (h c _ (mem_uc main_arg9 (by decide))).trans (W6_kept m ρ c main_arg9 (by decide) (by decide) (by decide) (by decide) (by decide) (by decide)),
      (h c _ (mem_uc main_arg10 (by decide))).trans (W6_kept m ρ c main_arg10 (by decide) (by decide) (by decide) (by decide) (by decide) (by decide)),
      (h c _ (mem_uc main_arg11 (by decide))).trans (W6_kept m ρ c main_arg11 (by decide) (by decide) (by decide) (by decide) (by decide) (by decide)),
      (h c _ (mem_uc main_arg12 (by decide))).trans (W6_kept m ρ c main_arg12 (by decide) (by decide) (by decide) (by decide) (by decide) (by decide)),
      (h c _ (mem_uc main_arg13 (by decide))).trans (W6_kept m ρ c main_arg13 (by decide) (by decide) (by decide) (by decide) (by decide) (by decide))⟩)
    (run_all m ρ)

end Cert.KernelIdeal.Hand

end
-- ==== Proof.RefRows.lean ====
/-
  The reference's two dense stages as whole arrays, at the ideal values: its product with the weights, the bias row
  broadcast over the rows and (for the edge network) the maximum with a broadcast zero are, entry by entry, the row
  functions of the operand's rows.
-/
import proofs.«135959_j29403346108688_1_alg».proof.ReferenceIdeal
import proofs.«135959_j29403346108688_1_alg».proof.Proof.Gen.ReferenceIdeal
import proofs.«135959_j29403346108688_1_alg».proof.Proof.LibDotRowsCols
import proofs.«135959_j29403346108688_1_alg».proof.Proof.Rows
import Idealize.ShloMosaic.Lib.Pipeline.Value
import Idealize.ShloMosaic.Lib.ValueLayout

noncomputable section

open scoped BigOperators

namespace Cert.ReferenceIdeal.RefRows

open Cert.ReferenceIdeal Cert.ReferenceIdeal.Gen
open Idealize.ShloMosaic Idealize.ShloMosaic.ValueIdx

/-- The bias [64], broadcast to one row [1, 64] and then over the rows [n, 64], read at entry (r, q) is the bias at q:
    the first broadcast reads the unit row axis at 0 and keeps the column, the second keeps the single coordinate. -/
private theorem bias_apply {n : Nat} (h1 : (⟨1, ![64]⟩ : Shape).BroadcastsInDim ⟨2, ![1, 64]⟩ (![1] : Fin 1 → Fin 2))
    (h2 : (⟨2, ![1, 64]⟩ : Shape).BroadcastsInDim ⟨2, ![n, 64]⟩ (![0, 1] : Fin 2 → Fin 2))
    (b : FVec Ideal ⟨1, ![64]⟩ .f32) (r : Fin n) (q : Fin 64) :
    broadcastInDim ⟨2, ![n, 64]⟩ ![0, 1] h2 (broadcastInDim ⟨2, ![1, 64]⟩ ![1] h1 b) (ix2 r q) = b (ix1 q) := by
  refine (broadcastInDim_apply _ h2 _ (ix2 r q) (ix2 (0 : Fin 1) q) ?_).trans
    (broadcastInDim_apply _ h1 b (ix2 (0 : Fin 1) q) (ix1 q) ?_)
  · intro a; match a with | ⟨0, _⟩ => rfl | ⟨1, _⟩ => rfl
  · intro a; match a with | ⟨0, _⟩ => rfl

/-- The scalar zero broadcast over [n, 64], read at any entry, is the zero of the row functions. -/
private theorem zero_apply {n : Nat} (h0 : (⟨0, ![]⟩ : Shape).BroadcastsInDim ⟨2, ![n, 64]⟩ (![] : Fin 0 → Fin 2))
    (r : Fin n) (q : Fin 64) :
    broadcastInDim ⟨2, ![n, 64]⟩ ![] h0 (constant (F := Ideal) ⟨0, ![]⟩ .f32 0x00000000#32) (ix2 r q) = Rows.zero :=
  broadcastInDim_apply _ h0 _ (ix2 r q) ix0 (fun a => a.elim0)

/-- One dense layer at an entry: the product of the rows of x with the columns of w at (r, q) is the sum over the
    shared axis, and the broadcast bias adds b q: the affine row function of row r of x and column q of w. -/
private theorem dense_apply {n K : Nat} (d : DotDims ⟨2, ![n, K]⟩ ⟨2, ![K, 64]⟩ ⟨2, ![n, 64]⟩)
    (hd : Cert.Lib.DotRowsCols.RowsCols d)
    (h1 : (⟨1, ![64]⟩ : Shape).BroadcastsInDim ⟨2, ![1, 64]⟩ (![1] : Fin 1 → Fin 2))
    (h2 : (⟨2, ![1, 64]⟩ : Shape).BroadcastsInDim ⟨2, ![n, 64]⟩ (![0, 1] : Fin 2 → Fin 2))
    (x : FVec Ideal ⟨2, ![n, K]⟩ .f32) (w : FVec Ideal ⟨2, ![K, 64]⟩ .f32) (b : FVec Ideal ⟨1, ![64]⟩ .f32)
    (r : Fin n) (q : Fin 64) :
    addf (Host.dotGeneral (F := Ideal) d none x w)
        (broadcastInDim ⟨2, ![n, 64]⟩ ![0, 1] h2 (broadcastInDim ⟨2, ![1, 64]⟩ ![1] h1 b)) (ix2 r q)
      = Rows.affine (fun j => x (ix2 r j)) (fun j => w (ix2 j q)) (b (ix1 q)) := by
  show Host.dotGeneral (F := Ideal) d none x w (ix2 r q)
      + broadcastInDim ⟨2, ![n, 64]⟩ ![0, 1] h2 (broadcastInDim ⟨2, ![1, 64]⟩ ![1] h1 b) (ix2 r q) = _
  rw [hd.dotGeneral_apply none x w (ix2 r q), bias_apply h1 h2 b r q]
  rfl

/-- The reference's edge network on the whole array of edge inputs. -/
theorem refMlp_eq (x : FVec Ideal S800000x192 .f32) (w1 : FVec Ideal S192x64 .f32) (b1 : FVec Ideal S64 .f32)
    (w2 : FVec Ideal S64x64 .f32) (b2 : FVec Ideal S64 .f32) :
    maximumf (addf (Host.dotGeneral dot_S800000x64_S64x64_S800000x64_1_0_0_1_n_n none
        (maximumf (addf (Host.dotGeneral dot_S800000x192_S192x64_S800000x64_1_0_0_1_n_n none x w1)
            (broadcastInDim S800000x64 ![0, 1] bcast_S1x64_S800000x64_0_1 (broadcastInDim S1x64 ![1] bcast_S64_S1x64_1 b1)))
          (broadcastInDim S800000x64 ![] bcast_S_S800000x64 (constant (F := Ideal) S_ .f32 0x00000000#32))) w2)
        (broadcastInDim S800000x64 ![0, 1] bcast_S1x64_S800000x64_0_1 (broadcastInDim S1x64 ![1] bcast_S64_S1x64_1 b2)))
      (broadcastInDim S800000x64 ![] bcast_S_S800000x64 (constant (F := Ideal) S_ .f32 0x00000000#32))
      = Rows.edgeMlp x w1 (fun k => b1 (ix1 k)) w2 (fun k => b2 (ix1 k)) := by
  funext i
  obtain ⟨r, q, rfl⟩ : ∃ (r : Fin 800000) (q : Fin 64), i = ix2 r q := ⟨i 0, i 1, eq_ix2 i⟩
  -- the outer maximum with the broadcast zero, and the outer dense layer, at the entry (r, q)
  refine (congrArg₂ max (dense_apply _ ⟨rfl, rfl, rfl, rfl, rfl, rfl⟩ _ _ _ w2 b2 r q) (zero_apply _ r q)).trans ?_
  -- the outer layer's operand row is, column by column, the inner layer at (r, k)
  show Rows.relu (Rows.affine _ (fun k => w2 (ix2 k q)) (b2 (ix1 q))) = Rows.relu (Rows.affine _ (fun k => w2 (ix2 k q)) (b2 (ix1 q)))
  refine congrArg Rows.relu (congrArg (fun f => Rows.affine f (fun k => w2 (ix2 k q)) (b2 (ix1 q))) (funext fun k => ?_))
  exact congrArg₂ max (dense_apply _ ⟨rfl, rfl, rfl, rfl, rfl, rfl⟩ _ _ x w1 b1 r k) (zero_apply _ r k)

/-- The reference's node layer on the whole array of aggregated messages. -/
theorem refLin_eq (x : FVec Ideal S51200x64 .f32) (wn : FVec Ideal S64x64 .f32) (bn : FVec Ideal S64 .f32) :
    addf (Host.dotGeneral dot_S51200x64_S64x64_S51200x64_1_0_0_1_n_n none x wn)
        (broadcastInDim S51200x64 ![0, 1] bcast_S1x64_S51200x64_0_1 (broadcastInDim S1x64 ![1] bcast_S64_S1x64_1 bn))
      = Rows.nodeLin x wn (fun k => bn (ix1 k)) := by
  funext i
  obtain ⟨r, q, rfl⟩ : ∃ (r : Fin 51200) (q : Fin 64), i = ix2 r q := ⟨i 0, i 1, eq_ix2 i⟩
  exact dense_apply _ ⟨rfl, rfl, rfl, rfl, rfl, rfl⟩ _ _ x wn bn r q

end Cert.ReferenceIdeal.RefRows

end
-- ==== Proof.RefBridge.lean ====
/-
  The reference's result is the layer function of its arguments: its two dense stages are the row-wise networks
  (RefRows.lean), and every other stage is, operation for operation, the stage the layer function is written with.
-/
import proofs.«135959_j29403346108688_1_alg».proof.Proof.RefRows
import proofs.«135959_j29403346108688_1_alg».proof.Proof.Layer

noncomputable section

namespace Cert.ReferenceIdeal.RefBridge

open Cert.ReferenceIdeal Cert.ReferenceIdeal.Gen
open Idealize.ShloMosaic Idealize.ShloMosaic.ValueIdx

/-- The composed term of the reference's run, with the argument arrays as variables, is the layer function of them. -/
theorem result_eq (a0 : FVec Ideal S51200x64 .f32) (a1 : FVec Ideal S800000x64 .f32) (a2 : FVec Ideal S128x128 .f32)
    (a3 : FVec Ideal S192x64 .f32) (a4 : FVec Ideal S64 .f32) (a5 : FVec Ideal S64x64 .f32) (a6 : FVec Ideal S64 .f32)
    (a7 : FVec Ideal S64x64 .f32) (a8 : FVec Ideal S64 .f32) (a9 : FVec Ideal S192x128 .f32) (a10 : FVec Ideal S128 .f32)
    (a11 a12 : (⟨S800000, .i32⟩ : BufTy).Contents (Elt Ideal)) (a13 : (⟨S51200, .i32⟩ : BufTy).Contents (Elt Ideal)) :
    (maximumf (addf (Host.dotGeneral dot_S128x192_S192x128_S128x128_1_0_0_1_n_n none (concatenate S128x192 1 [⟨S128x128, a2⟩, ⟨S128x64, (Host.scatterAdd scatter_S128x64_S51200x1_S51200x64_1_0_0_1 (broadcastInDim S128x64 ![] bcast_S_S128x64 (constant (F := Ideal) S_ .f32 0x00000000#32)) (broadcastInDim S51200x1 ![0] bcast_S51200_S51200x1_0 a13) (addf (Host.dotGeneral dot_S51200x64_S64x64_S51200x64_1_0_0_1_n_n none (Host.scatterAdd scatter_S51200x64_S800000x1_S800000x64_1_0_0_1 (broadcastInDim S51200x64 ![] bcast_S_S51200x64 (constant (F := Ideal) S_ .f32 0x00000000#32)) (broadcastInDim S800000x1 ![0] bcast_S800000_S800000x1_0 a12) (maximumf (addf (Host.dotGeneral dot_S800000x64_S64x64_S800000x64_1_0_0_1_n_n none (maximumf (addf (Host.dotGeneral dot_S800000x192_S192x64_S800000x64_1_0_0_1_n_n none (concatenate S800000x192 1 [⟨S800000x64, (Host.gather gather_S51200x64_S800000x1_S800000x64_1_0_n_n_0_1_164 a0 (broadcastInDim S800000x1 ![0] bcast_S800000_S800000x1_0 (select (cmpi .slt a11 (broadcastInDim S800000 ![] bcast_S_S800000 (constantI S_ 32 0#32))) (addi a11 (broadcastInDim S800000 ![] bcast_S_S800000 (constantI S_ 32 51200#32))) a11)))⟩, ⟨S800000x64, (Host.gather gather_S51200x64_S800000x1_S800000x64_1_0_n_n_0_1_164 a0 (broadcastInDim S800000x1 ![0] bcast_S800000_S800000x1_0 (select (cmpi .slt a12 (broadcastInDim S800000 ![] bcast_S_S800000 (constantI S_ 32 0#32))) (addi a12 (broadcastInDim S800000 ![] bcast_S_S800000 (constantI S_ 32 51200#32))) a12)))⟩, ⟨S800000x64, a1⟩] concatenates_S800000x64_S800000x64_S800000x64_S800000x192_d1) a3) (broadcastInDim S800000x64 ![0, 1] bcast_S1x64_S800000x64_0_1 (broadcastInDim S1x64 ![1] bcast_S64_S1x64_1 a4))) (broadcastInDim S800000x64 ![] bcast_S_S800000x64 (constant (F := Ideal) S_ .f32 0x00000000#32))) a5) (broadcastInDim S800000x64 ![0, 1] bcast_S1x64_S800000x64_0_1 (broadcastInDim S1x64 ![1] bcast_S64_S1x64_1 a6))) (broadcastInDim S800000x64 ![] bcast_S_S800000x64 (constant (F := Ideal) S_ .f32 0x00000000#32)))) a7) (broadcastInDim S51200x64 ![0, 1] bcast_S1x64_S51200x64_0_1 (broadcastInDim S1x64 ![1] bcast_S64_S1x64_1 a8))))⟩] concatenates_S128x128_S128x64_S128x192_d1) a9) (broadcastInDim S128x128 ![0, 1] bcast_S1x128_S128x128_0_1 (broadcastInDim S1x128 ![1] bcast_S128_S1x128_1 a10))) (broadcastInDim S128x128 ![] bcast_S_S128x128 (constant (F := Ideal) S_ .f32 0x00000000#32)) : FVec Ideal S128x128 .f32)
      = Cert.KernelIdeal.Layer.layerOut a0 a1 a2 a3 a4 a5 a6 a7 a8 a9 a10 a11 a12 a13 := by
  rw [RefRows.refMlp_eq, RefRows.refLin_eq]
  rfl

end Cert.ReferenceIdeal.RefBridge

end
-- ==== Proof.lean ====
/-
  The certificate of one message-passing layer of a graph network: a kernel program of two kernel calls among host
  operations against a plain host reference.

  Per edge, both programs take the feature rows of the edge's two end nodes and the edge's own row side by side and
  apply a two-layer network with the maximum with zero after each layer; the messages are summed into their destination
  nodes; a linear layer is applied per node; the nodes are summed into their graphs, joined with the graphs' own
  features, and a last dense layer with the maximum with zero gives the result. The kernel program does the two
  row-wise networks in kernel calls that work through the rows a block at a time (8000 edges, 12800 nodes), the matrix
  products taken on operands narrowed to a shorter float format and accumulated from zero; the reference does them on
  whole arrays. At the ideal values a change of float format is the identity and a product accumulated from zero is the
  plain sum over the shared axis, and both networks act on each row by itself, so block by block or whole they give
  the same array; everything else is the same host operation applied to equal operands. No law beyond this is used, so
  the finiteness of the inputs is never opened.

  The frames: the reference's is its run with the result dropped; the two kernel programs' are the run of @main's six
  items (Kernel/Run.lean, KernelIdeal/Run.lean), each call's body a load of every window, one computation and one
  store. The idealization rewrote nothing, so its preservation claim is trivial.
-/
import proofs.«135959_j29403346108688_1_alg».proof.Defs
import proofs.«135959_j29403346108688_1_alg».proof.Proof.Gen.Kernel
import proofs.«135959_j29403346108688_1_alg».proof.Proof.Gen.KernelIdeal
import proofs.«135959_j29403346108688_1_alg».proof.Proof.Gen.ReferenceIdeal
import proofs.«135959_j29403346108688_1_alg».proof.Proof.Gen.Pre_finite_inputs
import proofs.«135959_j29403346108688_1_alg».proof.Proof.Gen.ReferenceIdeal.Run
import proofs.«135959_j29403346108688_1_alg».proof.Proof.Kernel.Run
import proofs.«135959_j29403346108688_1_alg».proof.Proof.KernelIdeal.Run
import proofs.«135959_j29403346108688_1_alg».proof.Proof.KernelIdeal.Result
import proofs.«135959_j29403346108688_1_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the layer function of the arguments in their result
    buffers: the kernel program by its value run, the reference by its run and the bridge. -/
theorem algebraic : Cert.algebraic_KernelIdeal_ReferenceIdeal := by
  intro m ρ m' ρ' _ hagree
  refine ⟨_, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [e0, e1, e2, e3, e4, e5, e6, e7, e8, e9, e10, e11, e12, e13]
  exact Cert.ReferenceIdeal.RefBridge.result_eq _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
